-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel

variable [Facts]

def fn {F : FTy → Type} [FloatOps F] (main_arg0 : FVec F S500000x128 .f32) (main_arg1 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  main_v3
-- ==== Kernel.lean ====
abbrev S500000x128 : Shape := ⟨2, ![500000, 128]⟩
abbrev S500000 : Shape := ⟨1, ![500000]⟩
abbrev S500000x1 : Shape := ⟨2, ![500000, 1]⟩
abbrev S2x3x128 : Shape := ⟨3, ![2, 3, 128]⟩
abbrev S2x1x3 : Shape := ⟨3, ![2, 1, 3]⟩
abbrev S10000x128 : Shape := ⟨2, ![10000, 128]⟩
abbrev S10000x1 : Shape := ⟨2, ![10000, 1]⟩
abbrev S1x3x128 : Shape := ⟨3, ![1, 3, 128]⟩
abbrev S1x1x3 : Shape := ⟨3, ![1, 1, 3]⟩
abbrev S3x128 : Shape := ⟨2, ![3, 128]⟩
abbrev S1x3 : Shape := ⟨2, ![1, 3]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S3x1 : Shape := ⟨2, ![3, 1]⟩
abbrev S3 : Shape := ⟨1, ![3]⟩

abbrev nBuf : Space → Nat
  | .hbm => 23
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S500000x1, .i32⟩
  | .hbm, ⟨3, _⟩ => ⟨S2x3x128, .f32⟩
  | .hbm, ⟨4, _⟩ => ⟨S2x1x3, .f32⟩
  | .hbm, ⟨5, _⟩ => ⟨S_, .f32⟩
  | .hbm, ⟨6, _⟩ => ⟨S3x128, .f32⟩
  | .hbm, ⟨7, _⟩ => ⟨S_, .f32⟩
  | .hbm, ⟨8, _⟩ => ⟨S1x3, .f32⟩
  | .hbm, ⟨9, _⟩ => ⟨S3x1, .f32⟩
  | .hbm, ⟨10, _⟩ => ⟨S3x128, .f32⟩
  | .hbm, ⟨11, _⟩ => ⟨S3x128, .f32⟩
  | .hbm, ⟨12, _⟩ => ⟨S3x128, .f32⟩
  | .hbm, ⟨13, _⟩ => ⟨S_, .f32⟩
  | .hbm, ⟨14, _⟩ => ⟨S3, .f32⟩
  | .hbm, ⟨15, _⟩ => ⟨S3x1, .f32⟩
  | .hbm, ⟨16, _⟩ => ⟨S3x1, .f32⟩
  | .hbm, ⟨17, _⟩ => ⟨S_, .f32⟩
  | .hbm, ⟨18, _⟩ => ⟨S3x1, .f32⟩
  | .hbm, ⟨19, _⟩ => ⟨S3x1, .f32⟩
  | .hbm, ⟨20, _⟩ => ⟨S3x128, .f32⟩
  | .hbm, ⟨21, _⟩ => ⟨S3x128, .f32⟩
  | .hbm, ⟨22, _⟩ => ⟨S3, .i32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S1x3x128, .f32⟩
  | .local _ .vmem, ⟨5, _⟩ => ⟨S1x3x128, .f32⟩
  | .local _ .vmem, ⟨6, _⟩ => ⟨S1x1x3, .f32⟩
  | .local _ .vmem, ⟨7, _⟩ => ⟨S1x1x3, .f32⟩
  | .local _ .vmem, ⟨8, _⟩ => ⟨S3x128, .f32⟩
  | .local _ .vmem, ⟨9, _⟩ => ⟨S1x3, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v66 : BitVec 1 := Scalar.cmpi .eq arg1 c24_i32
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S500000_S500000x1 : S500000.ShapeCasts S500000x1
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  natLt_1_32 : 1 < 32
  broadcasts_S10000x1_S10000x128 : S10000x1.Broadcasts S10000x128
  reduces_S10000x128_S128 : S10000x128.Reduces [0] S128
  shapeCasts_S128_S1x128 : S128.ShapeCasts S1x128
  reduces_S10000x1_S1 : S10000x1.Reduces [0] S1
  shapeCasts_S1_S1x1 : S1.ShapeCasts S1x1
  inb_S3x128_S1x128_0_0 : ∀ a, (![0, 0] : Fin 2 → Nat) a + S1x128.size a ≤ S3x128.size a
  h_S1x128 : 0 < S1x128.numel
  shapeCasts_S1x128_S1x128 : S1x128.ShapeCasts S1x128
  inb_S1x3_S1x1_0_0 : ∀ a, (![0, 0] : Fin 2 → Nat) a + S1x1.size a ≤ S1x3.size a
  h_S1x1 : 0 < S1x1.numel
  shapeCasts_S1x1_S1x1 : S1x1.ShapeCasts S1x1
  inb_S3x128_S1x128_1_0 : ∀ a, (![1, 0] : Fin 2 → Nat) a + S1x128.size a ≤ S3x128.size a
  inb_S1x3_S1x1_0_1 : ∀ a, (![0, 1] : Fin 2 → Nat) a + S1x1.size a ≤ S1x3.size a
  inb_S3x128_S1x128_2_0 : ∀ a, (![2, 0] : Fin 2 → Nat) a + S1x128.size a ≤ S3x128.size a
  inb_S1x3_S1x1_0_2 : ∀ a, (![0, 2] : Fin 2 → Nat) a + S1x1.size a ≤ S1x3.size a
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  shapeCasts_S1x3_S1x1x3 : S1x3.ShapeCasts S1x1x3
  reducesTo_S2x3x128_S3x128_d0 : S2x3x128.ReducesTo [0] S3x128
  h_S_ : 0 < S_.numel
  reducesTo_S2x1x3_S1x3_d0 : S2x1x3.ReducesTo [0] S1x3
  shapeCasts_S1x3_S3x1 : S1x3.ShapeCasts S3x1
  bcast_S3x1_S3x128_0_1 : S3x1.BroadcastsInDim S3x128 (![0, 1] : Fin 2 → Fin S3x128.rank)
  reducesTo_S3x128_S3_d1 : S3x128.ReducesTo [1] S3
  bcast_S3_S3x1_0 : S3.BroadcastsInDim S3x1 (![0] : Fin 1 → Fin S3x1.rank)
  bcast_S_S3x1 : S_.BroadcastsInDim S3x1 (![] : Fin 0 → Fin S3x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .i32 = 32 ∨ (Rect.block (s := S500000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x3.size a ≤ S2x1x3.size a
  hwx0_3 : ∀ i : grid0.Coords, EltTy.bits .f32 = 32 ∨ (Rect.block (s := S2x1x3) S1x1x3.size (cc0_transform_3 i) (hinb0_3 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x3x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S500000x128 : Shape := ⟨2, ![500000, 128]⟩
abbrev S500000 : Shape := ⟨1, ![500000]⟩
abbrev S_ : Shape := ⟨0, ![]⟩
abbrev S3x128 : Shape := ⟨2, ![3, 128]⟩
abbrev S500000x1 : Shape := ⟨2, ![500000, 1]⟩
abbrev S3 : Shape := ⟨1, ![3]⟩
abbrev S3x1 : Shape := ⟨2, ![3, 1]⟩

abbrev nBuf : Space → Nat
  | .hbm => 26
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S_, .f32⟩
  | .hbm, ⟨3, _⟩ => ⟨S3x128, .f32⟩
  | .hbm, ⟨4, _⟩ => ⟨S500000x1, .i32⟩
  | .hbm, ⟨5, _⟩ => ⟨S3x128, .f32⟩
  | .hbm, ⟨6, _⟩ => ⟨S_, .f32⟩
  | .hbm, ⟨7, _⟩ => ⟨S500000, .f32⟩
  | .hbm, ⟨8, _⟩ => ⟨S_, .f32⟩
  | .hbm, ⟨9, _⟩ => ⟨S3, .f32⟩
  | .hbm, ⟨10, _⟩ => ⟨S500000x1, .i32⟩
  | .hbm, ⟨11, _⟩ => ⟨S3, .f32⟩
  | .hbm, ⟨12, _⟩ => ⟨S3x1, .f32⟩
  | .hbm, ⟨13, _⟩ => ⟨S3x128, .f32⟩
  | .hbm, ⟨14, _⟩ => ⟨S3x128, .f32⟩
  | .hbm, ⟨15, _⟩ => ⟨S3x128, .f32⟩
  | .hbm, ⟨16, _⟩ => ⟨S_, .f32⟩
  | .hbm, ⟨17, _⟩ => ⟨S3, .f32⟩
  | .hbm, ⟨18, _⟩ => ⟨S3x1, .f32⟩
  | .hbm, ⟨19, _⟩ => ⟨S3x1, .f32⟩
  | .hbm, ⟨20, _⟩ => ⟨S_, .f32⟩
  | .hbm, ⟨21, _⟩ => ⟨S3x1, .f32⟩
  | .hbm, ⟨22, _⟩ => ⟨S3x1, .f32⟩
  | .hbm, ⟨23, _⟩ => ⟨S3x128, .f32⟩
  | .hbm, ⟨24, _⟩ => ⟨S3x128, .f32⟩
  | .hbm, ⟨25, _⟩ => ⟨S3, .i32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S3x128 : S_.BroadcastsInDim S3x128 (![] : Fin 0 → Fin S3x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S3 : S_.BroadcastsInDim S3 (![] : Fin 0 → Fin S3.rank)
  bcast_S3_S3x1_0 : S3.BroadcastsInDim S3x1 (![0] : Fin 1 → Fin S3x1.rank)
  bcast_S3x1_S3x128_0_1 : S3x1.BroadcastsInDim S3x128 (![0, 1] : Fin 2 → Fin S3x128.rank)
  reducesTo_S3x128_S3_d1 : S3x128.ReducesTo [1] S3
  h_S_ : 0 < S_.numel
  bcast_S_S3x1 : S_.BroadcastsInDim S3x1 (![] : Fin 0 → Fin S3x1.rank)
  scatter_S3x128_S500000x1_S500000x128_1_0_0_1_wf : ScatterDims.WF S3x128 S500000x1 S500000x128 [1] [0] [0] 1
  scatter_S3_S500000x1_S500000_n_0_0_1_wf : ScatterDims.WF S3 S500000x1 S500000 [] [0] [0] 1

variable [Facts₀]

def scatter_S3x128_S500000x1_S500000x128_1_0_0_1 : ScatterDims S3x128 S500000x1 S500000x128 where
  updateWindowDims := [1]
  insertedWindowDims := [0]
  scatterDimsToOperandDims := [0]
  indexVectorDim := 1
  wf := scatter_S3x128_S500000x1_S500000x128_1_0_0_1_wf
def scatter_S3_S500000x1_S500000_n_0_0_1 : ScatterDims S3 S500000x1 S500000 where
  updateWindowDims := []
  insertedWindowDims := [0]
  scatterDimsToOperandDims := [0]
  indexVectorDim := 1
  wf := scatter_S3_S500000x1_S500000_n_0_0_1_wf

class Facts : Prop extends Facts₀ where

variable [Facts]
-- ==== Proof.SegSpec.lean ====
/-
  Per-class sums and counts of the rows of a table, as two functions of the table and its label words.

  For a table of 500000 rows and 128 columns with one 32-bit label word per row, class `j` (of three) collects the rows whose
  label word is the word of `j`: entry `(j, d)` of the class sums is the sum over those rows of column `d`, and entry
  `(j, d)` of the class counts is their number (the same in every column).  A row whose word is the word of no class
  belongs to none.  Both are written as a sum over ALL rows of the entry times a 0/1 weight, so that any grouping of the
  rows (by block, by core) is a regrouping of one finite sum.
-/
import Idealize.ShloMosaic.PureOps.Ideal
import Idealize.ShloMosaic.Lib.ValueIdx

noncomputable section

namespace SegMean

open Idealize.ShloMosaic Idealize.ShloMosaic.ValueIdx

/-- The weight of a row for class `j`: 1 when its label word is the word of `j`, else 0. -/
def hit (w : BitVec 32) (j : Nat) : EReal := if w = BitVec.ofNat 32 j then 1 else 0

/-- Entry `(j, d)` of the class sums: column `d` summed over the rows of class `j`. -/
def classSum (X : (⟨2, ![500000, 128]⟩ : Shape).Idx → EReal) (L : (⟨1, ![500000]⟩ : Shape).Idx → BitVec 32) :
    (⟨2, ![3, 128]⟩ : Shape).Idx → EReal :=
  fun y => ∑ e : Fin 500000, X (ix2 e (y 1)) * hit (L (ix1 e)) (y 0).val

/-- Entry `(j, d)` of the class counts: the number of rows of class `j`, whatever the column. -/
def classCount (L : (⟨1, ![500000]⟩ : Shape).Idx → BitVec 32) : (⟨2, ![3, 128]⟩ : Shape).Idx → EReal :=
  fun y => ∑ e : Fin 500000, hit (L (ix1 e)) (y 0).val

end SegMean

end
-- ==== Proof.KerPay.lean ====
/-
  What one grid step adds to the accumulators, entry by entry: for each class, the block's column sums over the rows of that
  class and the number of such rows.
-/
import proofs.«422173_j38027640439209_3_alg».proof.Proof.Gen.KernelIdeal.Skeleton
import proofs.«422173_j38027640439209_3_alg».proof.Proof.SegSpec
import Idealize.ShloMosaic.PureOps.Ideal.Laws
import Idealize.ShloMosaic.Lib.Pipeline.Value
import Idealize.ShloMosaic.Lib.ValueLayout

noncomputable section

namespace SegMean.Ker

open Idealize.ShloMosaic Idealize.ShloMosaic.TcCoe Idealize.ShloMosaic.ValueIdx
open Cert.KernelIdeal Cert.KernelIdeal.Gen

variable (x : Vec Ideal S10000x128 .f32) (l : Vec Ideal S10000x1 .i32)

/-- The float read of the zero-extended one-bit answer to "is the word `w` the word `c`": one where it is, zero elsewhere. -/
private theorem mask_word (w c : BitVec 32) :
    FloatOps.sitofp (F := Ideal) .f32 ((IntOp.cmpi .eq w c).setWidth 32) = if w = c then (1 : EReal) else 0 := by
  by_cases h : w = c
  · subst h
    rw [if_pos rfl]
    show (((((BitVec.ofBool (w == w)).setWidth 32).toInt : ℤ) : ℝ) : EReal) = 1
    simp
  · rw [if_neg h]
    show (((((BitVec.ofBool (w == c)).setWidth 32).toInt : ℤ) : ℝ) : EReal) = 0
    have hb : (w == c) = false := by simpa using h
    rw [hb]
    simp

/-- A one-column array broadcast along its unit axis reads, at (r, d), the column's entry of row r. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a 10000 x 128 array, read at lane d. -/
private theorem colsum128 (src : FVec Ideal S10000x128 .f32) (h : S10000x128.Reduces [0] S128)
    (hφ : FKind.Formats .f32) (hacc : (0x00000000#32 : BitVec 32) = FKind.add.neutral .f32 hφ) (d : Fin 128) :
    multiReduction (F := Ideal) .add [0] S128 src 0x00000000#32 h hφ hacc (ix1 d) = ∑ r : Fin 10000, src (ix2 r d) := by
  refine (Ideal.multiReduction_add_single src 0x00000000#32 h hφ hacc (ix1 d)).trans ?_
  refine Finset.sum_congr rfl fun r _ => congrArg src ?_
  funext a
  match a with
  | ⟨0, _⟩ => rfl
  | ⟨1, _⟩ => rfl

/-- The sum over the rows of a 10000 x 1 array. -/
private theorem colsum1 (src : FVec Ideal S10000x1 .f32) (h : S10000x1.Reduces [0] S1)
    (hφ : FKind.Formats .f32) (hacc : (0x00000000#32 : BitVec 32) = FKind.add.neutral .f32 hφ) :
    multiReduction (F := Ideal) .add [0] S1 src 0x00000000#32 h hφ hacc (ix1 (0 : Fin 1)) = ∑ r : Fin 10000, src (ix2 r (0 : Fin 1)) := by
  refine (Ideal.multiReduction_add_single src 0x00000000#32 h hφ hacc (ix1 (0 : Fin 1))).trans ?_
  refine Finset.sum_congr rfl fun r _ => congrArg src ?_
  funext a
  match a with
  | ⟨0, _⟩ => rfl
  | ⟨1, _⟩ => rfl

/-- Class 0's mask at row r. -/
private theorem mask0_apply (r : Fin 10000) :
    k0_pay4 (F := Ideal) l (ix2 r (0 : Fin 1)) = SegMean.hit (l (ix2 r (0 : Fin 1))) 0 := by
  unfold k0_pay4 k0_pay3
  rw [shapeCast_self]
  exact mask_word (l (ix2 r (0 : Fin 1))) 0#32

/-- Class 1's mask at row r. -/
private theorem mask1_apply (r : Fin 10000) :
    k0_pay7 (F := Ideal) l (ix2 r (0 : Fin 1)) = SegMean.hit (l (ix2 r (0 : Fin 1))) 1 := by
  unfold k0_pay7 k0_pay3
  rw [shapeCast_self]
  exact mask_word (l (ix2 r (0 : Fin 1))) 1#32

/-- Class 2's mask at row r, over the labels as they are read. -/
private theorem mask2_apply (r : Fin 10000) :
    k0_pay12 (F := Ideal) (k0_pay3 (F := Ideal) l) (ix2 r (0 : Fin 1)) = SegMean.hit (l (ix2 r (0 : Fin 1))) 2 := by
  unfold k0_pay12 k0_pay3
  rw [shapeCast_self]
  exact mask_word (l (ix2 r (0 : Fin 1))) 2#32

/-- The reset value of the sum accumulator is zero everywhere. -/
theorem pay1_apply (y : S3x128.Idx) : k0_pay1 (F := Ideal) y = 0 := by
  unfold k0_pay1
  rw [shapeCast_self]
  exact Ideal.ofBits_zero_f32

/-- The reset value of the count accumulator is zero everywhere. -/
theorem pay2_apply (y : S1x3.Idx) : k0_pay2 (F := Ideal) y = 0 := by
  unfold k0_pay2
  rw [shapeCast_self]
  exact Ideal.ofBits_zero_f32

/-- Class 0's row of the sum accumulator after the step: what it held plus the block's column sum over class 0's rows. -/
theorem pay5_apply (a : Vec Ideal S1x128 .f32) (d : Fin 128) :
    k0_pay5 (F := Ideal) x l a (ix2 (0 : Fin 1) d) = a (ix2 (0 : Fin 1) d) + ∑ r : Fin 10000, x (ix2 r d) * SegMean.hit (l (ix2 r (0 : Fin 1))) 0 := by
  unfold k0_pay5
  rw [shapeCast_self]
  refine congrArg (a (ix2 (0 : Fin 1) d) + ·) ?_
  refine (shapeCast_a_1a_apply _ _ (0 : Fin 1) d).trans ?_
  refine (colsum128 _ _ _ _ d).trans ?_
  refine Finset.sum_congr rfl fun r _ => ?_
  show x (ix2 r d) * broadcastTo S10000x128 (k0_pay4 (F := Ideal) l) broadcasts_S10000x1_S10000x128 (ix2 r d) = _
  rw [broadcastTo_a1_ab_apply, mask0_apply]

/-- Class 0's count after the step: what it held plus the number of class 0's rows in the block. -/
theorem pay6_apply (b : Vec Ideal S1x1 .f32) :
    k0_pay6 (F := Ideal) l b (ix2 (0 : Fin 1) (0 : Fin 1)) = b (ix2 (0 : Fin 1) (0 : Fin 1)) + ∑ r : Fin 10000, SegMean.hit (l (ix2 r (0 : Fin 1))) 0 := by
  unfold k0_pay6
  rw [shapeCast_self]
  refine congrArg (b (ix2 (0 : Fin 1) (0 : Fin 1)) + ·) ?_
  refine (shapeCast_a_1a_apply _ _ (0 : Fin 1) (0 : Fin 1)).trans ?_
  refine (colsum1 _ _ _ _).trans ?_
  exact Finset.sum_congr rfl fun r _ => mask0_apply l r

/-- The block's column sum over class 1's rows. -/
theorem pay8_apply (d : Fin 128) :
    k0_pay8 (F := Ideal) x l (ix2 (0 : Fin 1) d) = ∑ r : Fin 10000, x (ix2 r d) * SegMean.hit (l (ix2 r (0 : Fin 1))) 1 := by
  unfold k0_pay8
  refine (shapeCast_a_1a_apply _ _ (0 : Fin 1) d).trans ?_
  refine (colsum128 _ _ _ _ d).trans ?_
  refine Finset.sum_congr rfl fun r _ => ?_
  show x (ix2 r d) * broadcastTo S10000x128 (k0_pay7 (F := Ideal) l) broadcasts_S10000x1_S10000x128 (ix2 r d) = _
  rw [broadcastTo_a1_ab_apply, mask1_apply]

/-- The number of class 1's rows in the block. -/
theorem pay9_apply :
    k0_pay9 (F := Ideal) l (ix1 (0 : Fin 1)) = ∑ r : Fin 10000, SegMean.hit (l (ix2 r (0 : Fin 1))) 1 := by
  unfold k0_pay9
  refine (colsum1 _ _ _ _).trans ?_
  exact Finset.sum_congr rfl fun r _ => mask1_apply l r

/-- Class 1's row of the sum accumulator after the step. -/
theorem pay10_apply (s : FVec Ideal S1x128 .f32) (a : Vec Ideal S1x128 .f32) (d : Fin 128) :
    k0_pay10 (F := Ideal) s a (ix2 (0 : Fin 1) d) = a (ix2 (0 : Fin 1) d) + s (ix2 (0 : Fin 1) d) := by
  unfold k0_pay10
  rw [shapeCast_self]
  rfl

/-- Class 1's count after the step. -/
theorem pay11_apply (n : FVec Ideal S1 .f32) (b : Vec Ideal S1x1 .f32) :
    k0_pay11 (F := Ideal) n b (ix2 (0 : Fin 1) (0 : Fin 1)) = b (ix2 (0 : Fin 1) (0 : Fin 1)) + n (ix1 (0 : Fin 1)) := by
  unfold k0_pay11
  rw [shapeCast_self]
  exact congrArg (b (ix2 (0 : Fin 1) (0 : Fin 1)) + ·) (shapeCast_a_1a_apply _ _ (0 : Fin 1) (0 : Fin 1))

/-- Class 2's row of the sum accumulator after the step. -/
theorem pay13_apply (a : Vec Ideal S1x128 .f32) (d : Fin 128) :
    k0_pay13 (F := Ideal) x (k0_pay3 (F := Ideal) l) a (ix2 (0 : Fin 1) d)
      = a (ix2 (0 : Fin 1) d) + ∑ r : Fin 10000, x (ix2 r d) * SegMean.hit (l (ix2 r (0 : Fin 1))) 2 := by
  unfold k0_pay13
  rw [shapeCast_self]
  refine congrArg (a (ix2 (0 : Fin 1) d) + ·) ?_
  refine (shapeCast_a_1a_apply _ _ (0 : Fin 1) d).trans ?_
  refine (colsum128 _ _ _ _ d).trans ?_
  refine Finset.sum_congr rfl fun r _ => ?_
  show x (ix2 r d) * broadcastTo S10000x128 (k0_pay12 (F := Ideal) (k0_pay3 (F := Ideal) l)) broadcasts_S10000x1_S10000x128 (ix2 r d) = _
  rw [broadcastTo_a1_ab_apply, mask2_apply]

/-- Class 2's count after the step. -/
theorem pay14_apply (b : Vec Ideal S1x1 .f32) :
    k0_pay14 (F := Ideal) (k0_pay3 (F := Ideal) l) b (ix2 (0 : Fin 1) (0 : Fin 1))
      = b (ix2 (0 : Fin 1) (0 : Fin 1)) + ∑ r : Fin 10000, SegMean.hit (l (ix2 r (0 : Fin 1))) 2 := by
  unfold k0_pay14
  rw [shapeCast_self]
  refine congrArg (b (ix2 (0 : Fin 1) (0 : Fin 1)) + ·) ?_
  refine (shapeCast_a_1a_apply _ _ (0 : Fin 1) (0 : Fin 1)).trans ?_
  refine (colsum1 _ _ _ _).trans ?_
  exact Finset.sum_congr rfl fun r _ => mask2_apply l r

/-- The flushed sum block is the accumulator with a unit leading axis. -/
theorem pay15_apply (s : Vec Ideal S3x128 .f32) (j : Fin 3) (d : Fin 128) :
    k0_pay15 (F := Ideal) s (ix3 (0 : Fin 1) j d) = s (ix2 j d) := by
  unfold k0_pay15
  exact shapeCast_ab_1ab_apply _ _ (0 : Fin 1) j d

/-- The flushed count block is the accumulator with a unit leading axis. -/
theorem pay16_apply (s : Vec Ideal S1x3 .f32) (j : Fin 3) :
    k0_pay16 (F := Ideal) s (ix3 (0 : Fin 1) (0 : Fin 1) j) = s (ix2 (0 : Fin 1) j) := by
  unfold k0_pay16
  exact shapeCast_ab_1ab_apply _ _ (0 : Fin 1) (0 : Fin 1) j

end SegMean.Ker

end
-- ==== Proof.KerPieces.lean ====
/-
  What one grid step leaves in the two accumulators and, at a core's last step, in the two output blocks.

  The sum accumulator holds one row per class and the count accumulator one entry per class.  A step adds to class `j`'s row
  the block's column sums over the rows whose label word is `j`'s, and to class `j`'s count the number of such rows; a
  core's first step starts from zero instead of from what the step before left; a core's last step also copies both
  accumulators, under a unit leading axis, into the output blocks.
-/
import proofs.«422173_j38027640439209_3_alg».proof.Proof.Gen.KernelIdeal.Frame
import proofs.«422173_j38027640439209_3_alg».proof.Proof.KerPay
import proofs.«422173_j38027640439209_3_alg».proof.Proof.SegSpec

set_option maxRecDepth 16384

noncomputable section

namespace SegMean.Ker

open Idealize.ShloMosaic Idealize.ShloMosaic.TcCoe Idealize.ShloMosaic.ValueIdx Idealize.ShloMosaic.Tactic
open Idealize.SL Idealize.SL.Sem
open Cert.KernelIdeal Cert.KernelIdeal.Gen

/-- The sum accumulator after a step over the block `x` with label words `l`, from the contents `s` before it. -/
def stepSum (x : Vec Ideal S10000x128 .f32) (l : Vec Ideal S10000x1 .i32) (s : Vec Ideal S3x128 .f32) : Vec Ideal S3x128 .f32 :=
  fun y => s y + ∑ r : Fin 10000, x (ix2 r (y 1)) * SegMean.hit (l (ix2 r (0 : Fin 1))) (y 0).val

/-- The count accumulator after a step over label words `l`, from the contents `n` before it. -/
def stepCnt (l : Vec Ideal S10000x1 .i32) (n : Vec Ideal S1x3 .f32) : Vec Ideal S1x3 .f32 :=
  fun y => n y + ∑ r : Fin 10000, SegMean.hit (l (ix2 r (0 : Fin 1))) (y 1).val

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- Entry `(0, d)` of row `j` of a [3,128] array sits at `(j, d)`. -/
theorem rowEmb (j : Fin 3) (hj : ∀ a, (![j.val, 0] : Fin 2 → ℕ) a + S1x128.size a ≤ S3x128.size a) (d : Fin 128) :
    (Rect.unit (s := S3x128) ![j.val, 0] S1x128.size hj).emb (ix2 (0 : Fin 1) d) = ix2 j d := by
  funext a; refine Fin.ext ?_
  match a with
  | ⟨0, _⟩ => show j.val + 1 * 0 = j.val; omega
  | ⟨1, _⟩ => show 0 + 1 * d.val = d.val; omega

/-- A load of a whole [10000,128] buffer held at `X` reads `X`. -/
theorem loadBlock {m : Memref sig .tc .vmem S10000x128 .f32} (h : m.IsWhole) (X : Vec Ideal S10000x128 .f32)
    (inb : ∀ a, (![0, 0] : Fin 2 → ℕ) a + S10000x128.size a ≤ S10000x128.size a) :
    View.readAt (Elt Ideal) m.view (Rect.unit (s := S10000x128) ![0, 0] S10000x128.size inb).toLoadRect (h.unread X) = X := by
  rw [View.readAt_eq_ld, h.read_unread, View.ld_unit_zero zero2]

/-- A load of a whole [10000,1] buffer of words held at `X` reads `X`. -/
theorem loadLabels {m : Memref sig .tc .vmem S10000x1 .i32} (h : m.IsWhole) (X : Vec Ideal S10000x1 .i32)
    (inb : ∀ a, (![0, 0] : Fin 2 → ℕ) a + S10000x1.size a ≤ S10000x1.size a) :
    View.readAt (Elt Ideal) m.view (Rect.unit (s := S10000x1) ![0, 0] S10000x1.size inb).toLoadRect (h.unread X) = X := by
  rw [View.readAt_eq_ld, h.read_unread, View.ld_unit_zero zero2]

/-- A load of row `j` of a [3,128] buffer held at `X`, at column `d`, reads `X (j, d)`. -/
theorem loadRow {m : Memref sig .tc .vmem S3x128 .f32} (h : m.IsWhole) (X : Vec Ideal S3x128 .f32) (j : Fin 3)
    (hj : ∀ a, (![j.val, 0] : Fin 2 → ℕ) a + S1x128.size a ≤ S3x128.size a) (d : Fin 128) :
    View.readAt (Elt Ideal) m.view (Rect.unit (s := S3x128) ![j.val, 0] S1x128.size hj).toLoadRect (h.unread X) (ix2 (0 : Fin 1) d)
      = X (ix2 j d) :=
  (congrFun (h.read_unread X) _).trans (congrArg X (rowEmb j hj d))

/-- A row store whose payload, column by column, is the row's old entry plus the block's column sum over the class's rows
    is the step's value on its row. -/
theorem rowPiece (j : Fin 3) (hj : ∀ a, (![j.val, 0] : Fin 2 → ℕ) a + S1x128.size a ≤ S3x128.size a)
    (x0 : Vec Ideal S10000x128 .f32) (x1 : Vec Ideal S10000x1 .i32) (xs0 : Vec Ideal S3x128 .f32)
    (w : S1x128.Idx → EReal)
    (hw : ∀ d : Fin 128, w (ix2 (0 : Fin 1) d)
      = xs0 (ix2 j d) + ∑ r : Fin 10000, x0 (ix2 r d) * SegMean.hit (x1 (ix2 r (0 : Fin 1))) j.val)
    (x : S1x128.Idx) :
    w x = stepSum x0 x1 xs0 ((Rect.unit (s := S3x128) ![j.val, 0] S1x128.size hj).emb x) := by
  obtain ⟨a, d, rfl⟩ : ∃ (a : Fin 1) (d : Fin 128), x = ix2 a d := ⟨x 0, x 1, eq_ix2 x⟩
  obtain rfl : a = 0 := Subsingleton.elim _ _
  rw [rowEmb j hj d, hw d]
  rfl

/-- Entry `(0, 0)` of column `j` of a [1,3] array sits at `(0, j)`. -/
theorem colEmb (j : Fin 3) (hj : ∀ a, (![0, j.val] : Fin 2 → ℕ) a + S1x1.size a ≤ S1x3.size a) :
    (Rect.unit (s := S1x3) ![0, j.val] S1x1.size hj).emb (ix2 (0 : Fin 1) (0 : Fin 1)) = ix2 (0 : Fin 1) j := by
  funext a; refine Fin.ext ?_
  match a with
  | ⟨0, _⟩ => show 0 + 1 * 0 = 0; omega
  | ⟨1, _⟩ => show j.val + 1 * 0 = j.val; omega

/-- A load of entry `(0, j)` of a [1,3] buffer held at `X` reads `X (0, j)`. -/
theorem loadEntry {m : Memref sig .tc .vmem S1x3 .f32} (h : m.IsWhole) (X : Vec Ideal S1x3 .f32) (j : Fin 3)
    (hj : ∀ a, (![0, j.val] : Fin 2 → ℕ) a + S1x1.size a ≤ S1x3.size a) :
    View.readAt (Elt Ideal) m.view (Rect.unit (s := S1x3) ![0, j.val] S1x1.size hj).toLoadRect (h.unread X) (ix2 (0 : Fin 1) (0 : Fin 1))
      = X (ix2 (0 : Fin 1) j) :=
  (congrFun (h.read_unread X) _).trans (congrArg X (colEmb j hj))

/-- A one-entry store whose payload is the entry's old value plus the number of the class's rows in the block is the
    step's value at its entry. -/
theorem colPiece (j : Fin 3) (hj : ∀ a, (![0, j.val] : Fin 2 → ℕ) a + S1x1.size a ≤ S1x3.size a)
    (x1 : Vec Ideal S10000x1 .i32) (xs1 : Vec Ideal S1x3 .f32) (w : S1x1.Idx → EReal)
    (hw : w (ix2 (0 : Fin 1) (0 : Fin 1)) = xs1 (ix2 (0 : Fin 1) j) + ∑ r : Fin 10000, SegMean.hit (x1 (ix2 r (0 : Fin 1))) j.val)
    (x : S1x1.Idx) :
    w x = stepCnt x1 xs1 ((Rect.unit (s := S1x3) ![0, j.val] S1x1.size hj).emb x) := by
  obtain ⟨a, b, rfl⟩ : ∃ (a : Fin 1) (b : Fin 1), x = ix2 a b := ⟨x 0, x 1, eq_ix2 x⟩
  obtain rfl : a = 0 := Subsingleton.elim _ _
  obtain rfl : b = 0 := Subsingleton.elim _ _
  rw [colEmb j hj, hw]
  rfl

section Rows

variable {arg2 : Memref sig .tc .vmem S10000x128 .f32} (harg2 : arg2.IsWhole) {arg3 : Memref sig .tc .vmem S10000x1 .i32} (harg3 : arg3.IsWhole)
  {arg6 : Memref sig .tc .vmem S3x128 .f32} (harg6 : arg6.IsWhole) {arg7 : Memref sig .tc .vmem S1x3 .f32} (harg7 : arg7.IsWhole)
  (x0 : Vec Ideal S10000x128 .f32) (x1 : Vec Ideal S10000x1 .i32) (xs0 : Vec Ideal S3x128 .f32) (xs1 : Vec Ideal S1x3 .f32)

/-- The three row stores of a step, each over its own row as loaded from the contents `xs0`, leave one step from `xs0`. -/
theorem rows3 (y : S3x128.Idx) :
    View.canon [(⟨(Rect.unit (s := S3x128) ![2, 0] S1x128.size inb_S3x128_S1x128_2_0), k0_pay13 (F := Ideal) (View.readAt (Elt Ideal) arg2.view (Rect.unit (s := S10000x128) ![0, 0] S10000x128.size inb_S10000x128_S10000x128_0_0).toLoadRect (harg2.unread x0)) (k0_pay3 (F := Ideal) (View.readAt (Elt Ideal) arg3.view (Rect.unit (s := S10000x1) ![0, 0] S10000x1.size inb_S10000x1_S10000x1_0_0).toLoadRect (harg3.unread x1))) (View.readAt (Elt Ideal) arg6.view (Rect.unit (s := S3x128) ![2, 0] S1x128.size inb_S3x128_S1x128_2_0).toLoadRect (harg6.unread xs0))⟩ : View.Piece (Elt Ideal) S3x128 .f32),
      ⟨(Rect.unit (s := S3x128) ![1, 0] S1x128.size inb_S3x128_S1x128_1_0), k0_pay10 (F := Ideal) (k0_pay8 (F := Ideal) (View.readAt (Elt Ideal) arg2.view (Rect.unit (s := S10000x128) ![0, 0] S10000x128.size inb_S10000x128_S10000x128_0_0).toLoadRect (harg2.unread x0)) (View.readAt (Elt Ideal) arg3.view (Rect.unit (s := S10000x1) ![0, 0] S10000x1.size inb_S10000x1_S10000x1_0_0).toLoadRect (harg3.unread x1))) (View.readAt (Elt Ideal) arg6.view (Rect.unit (s := S3x128) ![1, 0] S1x128.size inb_S3x128_S1x128_1_0).toLoadRect (harg6.unread xs0))⟩,
      ⟨(Rect.unit (s := S3x128) ![0, 0] S1x128.size inb_S3x128_S1x128_0_0), k0_pay5 (F := Ideal) (View.readAt (Elt Ideal) arg2.view (Rect.unit (s := S10000x128) ![0, 0] S10000x128.size inb_S10000x128_S10000x128_0_0).toLoadRect (harg2.unread x0)) (View.readAt (Elt Ideal) arg3.view (Rect.unit (s := S10000x1) ![0, 0] S10000x1.size inb_S10000x1_S10000x1_0_0).toLoadRect (harg3.unread x1)) (View.readAt (Elt Ideal) arg6.view (Rect.unit (s := S3x128) ![0, 0] S1x128.size inb_S3x128_S1x128_0_0).toLoadRect (harg6.unread xs0))⟩] y = stepSum x0 x1 xs0 y := by
  refine View.canon_apply_of_pieces (stepSum x0 x1 xs0) _ ?_ y ?_
  · intro p hp x
    simp only [List.mem_cons, List.not_mem_nil, or_false] at hp
    rcases hp with rfl | rfl | rfl
    · refine rowPiece 2 inb_S3x128_S1x128_2_0 x0 x1 xs0 _ (fun d => ?_) x
      refine (pay13_apply _ _ _ d).trans ?_
      rw [loadBlock harg2 x0, loadLabels harg3 x1]
      exact congrArg (· + _) (loadRow harg6 xs0 2 inb_S3x128_S1x128_2_0 d)
    · refine rowPiece 1 inb_S3x128_S1x128_1_0 x0 x1 xs0 _ (fun d => ?_) x
      refine (pay10_apply _ _ d).trans ?_
      rw [pay8_apply, loadBlock harg2 x0, loadLabels harg3 x1]
      exact congrArg (· + _) (loadRow harg6 xs0 1 inb_S3x128_S1x128_1_0 d)
    · refine rowPiece 0 inb_S3x128_S1x128_0_0 x0 x1 xs0 _ (fun d => ?_) x
      refine (pay5_apply _ _ _ d).trans ?_
      rw [loadBlock harg2 x0, loadLabels harg3 x1]
      exact congrArg (· + _) (loadRow harg6 xs0 0 inb_S3x128_S1x128_0_0 d)
  · exact View.cover_of_tiledL (s := S3x128) _ S1x128.size (by sl_kernel_rfl) y

/-- The three one-entry stores of a step, each over its own entry as loaded from `xs1`, leave one step from `xs1`. -/
theorem cols3 (y : S1x3.Idx) :
    View.canon [(⟨(Rect.unit (s := S1x3) ![0, 2] S1x1.size inb_S1x3_S1x1_0_2), k0_pay14 (F := Ideal) (k0_pay3 (F := Ideal) (View.readAt (Elt Ideal) arg3.view (Rect.unit (s := S10000x1) ![0, 0] S10000x1.size inb_S10000x1_S10000x1_0_0).toLoadRect (harg3.unread x1))) (View.readAt (Elt Ideal) arg7.view (Rect.unit (s := S1x3) ![0, 2] S1x1.size inb_S1x3_S1x1_0_2).toLoadRect (harg7.unread xs1))⟩ : View.Piece (Elt Ideal) S1x3 .f32),
      ⟨(Rect.unit (s := S1x3) ![0, 1] S1x1.size inb_S1x3_S1x1_0_1), k0_pay11 (F := Ideal) (k0_pay9 (F := Ideal) (View.readAt (Elt Ideal) arg3.view (Rect.unit (s := S10000x1) ![0, 0] S10000x1.size inb_S10000x1_S10000x1_0_0).toLoadRect (harg3.unread x1))) (View.readAt (Elt Ideal) arg7.view (Rect.unit (s := S1x3) ![0, 1] S1x1.size inb_S1x3_S1x1_0_1).toLoadRect (harg7.unread xs1))⟩,
      ⟨(Rect.unit (s := S1x3) ![0, 0] S1x1.size inb_S1x3_S1x1_0_0), k0_pay6 (F := Ideal) (View.readAt (Elt Ideal) arg3.view (Rect.unit (s := S10000x1) ![0, 0] S10000x1.size inb_S10000x1_S10000x1_0_0).toLoadRect (harg3.unread x1)) (View.readAt (Elt Ideal) arg7.view (Rect.unit (s := S1x3) ![0, 0] S1x1.size inb_S1x3_S1x1_0_0).toLoadRect (harg7.unread xs1))⟩] y = stepCnt x1 xs1 y := by
  refine View.canon_apply_of_pieces (stepCnt x1 xs1) _ ?_ y ?_
  · intro p hp x
    simp only [List.mem_cons, List.not_mem_nil, or_false] at hp
    rcases hp with rfl | rfl | rfl
    · refine colPiece 2 inb_S1x3_S1x1_0_2 x1 xs1 _ ?_ x
      refine (pay14_apply _ _).trans ?_
      rw [loadLabels harg3 x1]
      exact congrArg (· + _) (loadEntry harg7 xs1 2 inb_S1x3_S1x1_0_2)
    · refine colPiece 1 inb_S1x3_S1x1_0_1 x1 xs1 _ ?_ x
      refine (pay11_apply _ _).trans ?_
      rw [pay9_apply, loadLabels harg3 x1]
      exact congrArg (· + _) (loadEntry harg7 xs1 1 inb_S1x3_S1x1_0_1)
    · refine colPiece 0 inb_S1x3_S1x1_0_0 x1 xs1 _ ?_ x
      refine (pay6_apply _ _).trans ?_
      rw [loadLabels harg3 x1]
      exact congrArg (· + _) (loadEntry harg7 xs1 0 inb_S1x3_S1x1_0_0)
  · exact View.cover_of_tiledL (s := S1x3) _ S1x1.size (by sl_kernel_rfl) y

end Rows

/-- A [3,128] array under a unit leading axis. -/
def lift3 (s : Vec Ideal S3x128 .f32) : Vec Ideal S1x3x128 .f32 := fun y => s (ix2 (y 1) (y 2))
/-- A [1,3] array under a unit leading axis. -/
def lift3c (n : Vec Ideal S1x3 .f32) : Vec Ideal S1x1x3 .f32 := fun y => n (ix2 (y 1) (y 2))

/-- The index of entry `(j, d)` in a load of the whole [3,128] buffer is `(j, d)`. -/
theorem wholeIdx2 (inb : ∀ a, (![0, 0] : Fin 2 → ℕ) a + S3x128.size a ≤ S3x128.size a) (j : Fin 3) (d : Fin 128) :
    (Rect.unit (s := S3x128) ![0, 0] S3x128.size inb).toLoadRect.idx (ix2 j d) = ix2 j d := by
  funext a; refine Fin.ext ?_
  match a with
  | ⟨0, _⟩ => show 0 + 1 * j.val = j.val; omega
  | ⟨1, _⟩ => show 0 + 1 * d.val = d.val; omega

/-- The index of entry `(0, j)` in a load of the whole [1,3] buffer is `(0, j)`. -/
theorem wholeIdx2c (inb : ∀ a, (![0, 0] : Fin 2 → ℕ) a + S1x3.size a ≤ S1x3.size a) (a0 : Fin 1) (j : Fin 3) :
    (Rect.unit (s := S1x3) ![0, 0] S1x3.size inb).toLoadRect.idx (ix2 a0 j) = ix2 a0 j := by
  funext a; refine Fin.ext ?_
  match a with
  | ⟨0, _⟩ => show 0 + 1 * a0.val = a0.val; omega
  | ⟨1, _⟩ => show 0 + 1 * j.val = j.val; omega

/-- A middle step (neither a core's first nor its last) leaves the sum accumulator at one step from what it held. -/
theorem soutB0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : ¬cond0_1 i)
    (x0 : Vec Ideal S10000x128 .f32) (x1 : Vec Ideal S10000x1 .i32) (xs0 : Vec Ideal S3x128 .f32) (xs1 : Vec Ideal S1x3 .f32) :
    sout0_B_0 (F := Ideal) c i arg2 harg2 arg3 harg3 arg4 harg4 arg5 harg5 arg6 harg6 arg7 harg7 hc0 hc1 x0 x1 xs0 xs1 = stepSum x0 x1 xs0 := by
  funext y
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  exact rows3 harg2 harg3 harg6 x0 x1 xs0 y

/-- A middle step leaves the count accumulator at one step from what it held. -/
theorem soutB1 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : ¬cond0_1 i)
    (x0 : Vec Ideal S10000x128 .f32) (x1 : Vec Ideal S10000x1 .i32) (xs0 : Vec Ideal S3x128 .f32) (xs1 : Vec Ideal S1x3 .f32) :
    sout0_B_1 (F := Ideal) c i arg2 harg2 arg3 harg3 arg4 harg4 arg5 harg5 arg6 harg6 arg7 harg7 hc0 hc1 x0 x1 xs0 xs1 = stepCnt x1 xs1 := by
  funext y
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  exact cols3 harg3 harg7 x1 xs1 y

/-- A core's last step leaves the sum accumulator at one step from what it held. -/
theorem soutC0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : cond0_1 i)
    (x0 : Vec Ideal S10000x128 .f32) (x1 : Vec Ideal S10000x1 .i32) (xs0 : Vec Ideal S3x128 .f32) (xs1 : Vec Ideal S1x3 .f32) :
    sout0_C_0 (F := Ideal) c i arg2 harg2 arg3 harg3 arg4 harg4 arg5 harg5 arg6 harg6 arg7 harg7 hc0 hc1 x0 x1 xs0 xs1 = stepSum x0 x1 xs0 := by
  funext y
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  exact rows3 harg2 harg3 harg6 x0 x1 xs0 y

/-- A core's last step leaves the count accumulator at one step from what it held. -/
theorem soutC1 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : cond0_1 i)
    (x0 : Vec Ideal S10000x128 .f32) (x1 : Vec Ideal S10000x1 .i32) (xs0 : Vec Ideal S3x128 .f32) (xs1 : Vec Ideal S1x3 .f32) :
    sout0_C_1 (F := Ideal) c i arg2 harg2 arg3 harg3 arg4 harg4 arg5 harg5 arg6 harg6 arg7 harg7 hc0 hc1 x0 x1 xs0 xs1 = stepCnt x1 xs1 := by
  funext y
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  exact cols3 harg3 harg7 x1 xs1 y

/-- A core's last step writes the sum accumulator, after its step, into the output block. -/
theorem outC2 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : cond0_1 i)
    (x0 : Vec Ideal S10000x128 .f32) (x1 : Vec Ideal S10000x1 .i32) (xs0 : Vec Ideal S3x128 .f32) (xs1 : Vec Ideal S1x3 .f32) :
    out0_C_2 (F := Ideal) c i arg2 harg2 arg3 harg3 arg4 harg4 arg5 harg5 arg6 harg6 arg7 harg7 hc0 hc1 x0 x1 xs0 xs1 = lift3 (stepSum x0 x1 xs0) := by
  funext y
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero zero3]
  obtain ⟨a, j, d, rfl⟩ : ∃ (a : Fin 1) (j : Fin 3) (d : Fin 128), y = ix3 a j d := ⟨y 0, y 1, y 2, eq_ix3 y⟩
  obtain rfl : a = 0 := Subsingleton.elim _ _
  refine (pay15_apply _ j d).trans ?_
  rw [View.readCov_eq_canon']
  show View.canon _ ((Rect.unit (s := S3x128) ![0, 0] S3x128.size inb_S3x128_S3x128_0_0).toLoadRect.idx (ix2 j d)) = _
  rw [wholeIdx2]
  exact rows3 harg2 harg3 harg6 x0 x1 xs0 (ix2 j d)

/-- A core's last step writes the count accumulator, after its step, into the output block. -/
theorem outC3 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : ¬cond0_0 i) (hc1 : cond0_1 i)
    (x0 : Vec Ideal S10000x128 .f32) (x1 : Vec Ideal S10000x1 .i32) (xs0 : Vec Ideal S3x128 .f32) (xs1 : Vec Ideal S1x3 .f32) :
    out0_C_3 (F := Ideal) c i arg2 harg2 arg3 harg3 arg4 harg4 arg5 harg5 arg6 harg6 arg7 harg7 hc0 hc1 x0 x1 xs0 xs1 = lift3c (stepCnt x1 xs1) := by
  funext y
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero zero3]
  obtain ⟨a, b, j, rfl⟩ : ∃ (a : Fin 1) (b : Fin 1) (j : Fin 3), y = ix3 a b j := ⟨y 0, y 1, y 2, eq_ix3 y⟩
  obtain rfl : a = 0 := Subsingleton.elim _ _
  obtain rfl : b = 0 := Subsingleton.elim _ _
  refine (pay16_apply _ j).trans ?_
  rw [View.readCov_eq_canon']
  show View.canon _ ((Rect.unit (s := S1x3) ![0, 0] S1x3.size inb_S1x3_S1x3_0_0).toLoadRect.idx (ix2 (0 : Fin 1) j)) = _
  rw [wholeIdx2c]
  exact cols3 harg3 harg7 x1 xs1 (ix2 (0 : Fin 1) j)

end SegMean.Ker

end
-- ==== Proof.KerPiecesA.lean ====
/-
  A core's first step: both accumulators are set to zero and then take one step, so they end at one step from zero.
-/
import proofs.«422173_j38027640439209_3_alg».proof.Proof.KerPieces

set_option maxRecDepth 16384

noncomputable section

namespace SegMean.Ker

open Idealize.ShloMosaic Idealize.ShloMosaic.TcCoe Idealize.ShloMosaic.ValueIdx Idealize.ShloMosaic.Tactic
open Idealize.SL Idealize.SL.Sem
open Cert.KernelIdeal Cert.KernelIdeal.Gen

section FirstStep

variable {sg : RefSig} {κ : Kind} {sp : Space}

/-! ### The sum accumulator: rows of a [3,128] array -/

/-- `(j, d)` lies in row `k` only if `k` is `j`. -/
private theorem not_mem_row {j k : Fin 3} (hjk : j ≠ k)
    (hk : ∀ a, (![k.val, 0] : Fin 2 → ℕ) a + S1x128.size a ≤ S3x128.size a) (d : Fin 128) :
    ix2 j d ∉ (Rect.unit (s := S3x128) ![k.val, 0] S1x128.size hk).set := by
  rw [Rect.mem_set_unit]
  intro h
  have h0 := h ⟨0, by decide⟩
  change k.val ≤ j.val ∧ j.val < k.val + 1 at h0
  exact hjk (Fin.ext (by omega))

/-- A newest store to another row is passed over at `(j, d)`. -/
private theorem canon_row_skip {j k : Fin 3} (hjk : j ≠ k)
    (hk : ∀ a, (![k.val, 0] : Fin 2 → ℕ) a + S1x128.size a ≤ S3x128.size a)
    (w : S1x128.Idx → EReal) (L : List (View.Piece (Elt Ideal) S3x128 .f32)) (d : Fin 128) :
    View.canon ((⟨Rect.unit (s := S3x128) ![k.val, 0] S1x128.size hk, w⟩ : View.Piece (Elt Ideal) S3x128 .f32) :: L) (ix2 j d)
      = View.canon L (ix2 j d) :=
  View.canon_cons_of_not_mem _ L (not_mem_row hjk hk d)

/-- A newest store to row `j` gives, at `(j, d)`, its payload at `(0, d)`. -/
private theorem canon_row_hit (j : Fin 3)
    (hj : ∀ a, (![j.val, 0] : Fin 2 → ℕ) a + S1x128.size a ≤ S3x128.size a)
    (w : S1x128.Idx → EReal) (L : List (View.Piece (Elt Ideal) S3x128 .f32)) (d : Fin 128) :
    View.canon ((⟨Rect.unit (s := S3x128) ![j.val, 0] S1x128.size hj, w⟩ : View.Piece (Elt Ideal) S3x128 .f32) :: L) (ix2 j d)
      = w (ix2 (0 : Fin 1) d) := by
  have e := View.canon_cons_emb (Val := Elt Ideal) (Rect.unit (s := S3x128) ![j.val, 0] S1x128.size hj) w L (ix2 (0 : Fin 1) d)
  rw [rowEmb j hj d] at e
  exact e

/-- A load of row `j` after the stores `L` reads, at `(0, d)`, what they leave at `(j, d)`. -/
private theorem readRow (v : View sg κ sp S3x128 .f32) (L : List (View.Piece (Elt Ideal) S3x128 .f32)) (j : Fin 3)
    (hj : ∀ a, (![j.val, 0] : Fin 2 → ℕ) a + S1x128.size a ≤ S3x128.size a) (d : Fin 128) :
    v.readCov L (Rect.unit (s := S3x128) ![j.val, 0] S1x128.size hj).toLoadRect (ix2 (0 : Fin 1) d) = View.canon L (ix2 j d) := by
  rw [View.readCov_eq_canon']
  exact congrArg (View.canon L) (rowEmb j hj d)

/-- Three row stores over a zeroed [3,128] array, each row's payload its loaded old entry plus an increment: every entry ends
    at its increment. -/
private theorem firstStepSum (v : View sg κ sp S3x128 .f32)
    (h0 : ∀ a, (![0, 0] : Fin 2 → ℕ) a + S1x128.size a ≤ S3x128.size a)
    (h1 : ∀ a, (![1, 0] : Fin 2 → ℕ) a + S1x128.size a ≤ S3x128.size a)
    (h2 : ∀ a, (![2, 0] : Fin 2 → ℕ) a + S1x128.size a ≤ S3x128.size a)
    (hz : ∀ a, (![0, 0] : Fin 2 → ℕ) a + S3x128.size a ≤ S3x128.size a)
    (z : S3x128.Idx → EReal) (hzero : ∀ y, z y = 0)
    (f0 f1 f2 : (S1x128.Idx → EReal) → S1x128.Idx → EReal) (g : S3x128.Idx → EReal)
    (hf0 : ∀ a d, f0 a (ix2 (0 : Fin 1) d) = a (ix2 (0 : Fin 1) d) + g (ix2 (0 : Fin 3) d))
    (hf1 : ∀ a d, f1 a (ix2 (0 : Fin 1) d) = a (ix2 (0 : Fin 1) d) + g (ix2 (1 : Fin 3) d))
    (hf2 : ∀ a d, f2 a (ix2 (0 : Fin 1) d) = a (ix2 (0 : Fin 1) d) + g (ix2 (2 : Fin 3) d))
    (y : S3x128.Idx) :
    View.canon (Val := Elt Ideal) (e := .f32)
      [⟨(Rect.unit (s := S3x128) ![2, 0] S1x128.size h2), f2 (v.readCov (Val := Elt Ideal) [⟨(Rect.unit (s := S3x128) ![1, 0] S1x128.size h1), f1 (v.readCov (Val := Elt Ideal) [⟨(Rect.unit (s := S3x128) ![0, 0] S1x128.size h0), f0 (v.readCov (Val := Elt Ideal) [⟨(Rect.unit (s := S3x128) ![0, 0] S3x128.size hz), z⟩] (Rect.unit (s := S3x128) ![0, 0] S1x128.size h0).toLoadRect)⟩,
            ⟨(Rect.unit (s := S3x128) ![0, 0] S3x128.size hz), z⟩] (Rect.unit (s := S3x128) ![1, 0] S1x128.size h1).toLoadRect)⟩,
          ⟨(Rect.unit (s := S3x128) ![0, 0] S1x128.size h0), f0 (v.readCov (Val := Elt Ideal) [⟨(Rect.unit (s := S3x128) ![0, 0] S3x128.size hz), z⟩] (Rect.unit (s := S3x128) ![0, 0] S1x128.size h0).toLoadRect)⟩,
          ⟨(Rect.unit (s := S3x128) ![0, 0] S3x128.size hz), z⟩] (Rect.unit (s := S3x128) ![2, 0] S1x128.size h2).toLoadRect)⟩,
        ⟨(Rect.unit (s := S3x128) ![1, 0] S1x128.size h1), f1 (v.readCov (Val := Elt Ideal) [⟨(Rect.unit (s := S3x128) ![0, 0] S1x128.size h0), f0 (v.readCov (Val := Elt Ideal) [⟨(Rect.unit (s := S3x128) ![0, 0] S3x128.size hz), z⟩] (Rect.unit (s := S3x128) ![0, 0] S1x128.size h0).toLoadRect)⟩,
            ⟨(Rect.unit (s := S3x128) ![0, 0] S3x128.size hz), z⟩] (Rect.unit (s := S3x128) ![1, 0] S1x128.size h1).toLoadRect)⟩,
        ⟨(Rect.unit (s := S3x128) ![0, 0] S1x128.size h0), f0 (v.readCov (Val := Elt Ideal) [⟨(Rect.unit (s := S3x128) ![0, 0] S3x128.size hz), z⟩] (Rect.unit (s := S3x128) ![0, 0] S1x128.size h0).toLoadRect)⟩,
        ⟨(Rect.unit (s := S3x128) ![0, 0] S3x128.size hz), z⟩] y = g y := by
  obtain ⟨j, d, rfl⟩ : ∃ (j : Fin 3) (d : Fin 128), y = ix2 j d := ⟨y 0, y 1, eq_ix2 y⟩
  have hZ : ∀ (L : List (View.Piece (Elt Ideal) S3x128 .f32)) (y : S3x128.Idx),
      View.canon ((⟨Rect.unit (s := S3x128) ![0, 0] S3x128.size hz, z⟩ : View.Piece (Elt Ideal) S3x128 .f32) :: L) y = 0 :=
    fun L y => (congrFun (View.canon_cons_unit_zero zero2 hz z L) y).trans (hzero y)
  have hj3 : ∀ j : Fin 3, j = 0 ∨ j = 1 ∨ j = 2 := by decide
  rcases hj3 j with rfl | rfl | rfl
  · refine (canon_row_skip (k := 2) (by decide) h2 _ _ d).trans ?_
    refine (canon_row_skip (k := 1) (by decide) h1 _ _ d).trans ?_
    refine (canon_row_hit 0 h0 _ _ d).trans ?_
    refine (hf0 _ d).trans ?_
    refine (congrArg (fun t => t + g (ix2 (0 : Fin 3) d)) ?_).trans (zero_add _)
    exact (readRow v _ 0 h0 d).trans (hZ _ _)
  · refine (canon_row_skip (k := 2) (by decide) h2 _ _ d).trans ?_
    refine (canon_row_hit 1 h1 _ _ d).trans ?_
    refine (hf1 _ d).trans ?_
    refine (congrArg (fun t => t + g (ix2 (1 : Fin 3) d)) ?_).trans (zero_add _)
    exact (readRow v _ 1 h1 d).trans ((canon_row_skip (k := 0) (by decide) h0 _ _ d).trans (hZ _ _))
  · refine (canon_row_hit 2 h2 _ _ d).trans ?_
    refine (hf2 _ d).trans ?_
    refine (congrArg (fun t => t + g (ix2 (2 : Fin 3) d)) ?_).trans (zero_add _)
    exact (readRow v _ 2 h2 d).trans ((canon_row_skip (k := 1) (by decide) h1 _ _ d).trans
      ((canon_row_skip (k := 0) (by decide) h0 _ _ d).trans (hZ _ _)))

/-! ### The count accumulator: entries of a [1,3] array -/

/-- The one entry of the [1,1] piece at column `j` of a [1,3] array sits at `(0, j)`. -/
private theorem entEmb (j : Fin 3) (hj : ∀ a, (![0, j.val] : Fin 2 → ℕ) a + S1x1.size a ≤ S1x3.size a) :
    (Rect.unit (s := S1x3) ![0, j.val] S1x1.size hj).emb (ix2 (0 : Fin 1) (0 : Fin 1)) = ix2 (0 : Fin 1) j := by
  funext a; refine Fin.ext ?_
  match a with
  | ⟨0, _⟩ => show 0 + 1 * 0 = 0; omega
  | ⟨1, _⟩ => show j.val + 1 * 0 = j.val; omega

/-- `(0, j)` lies in the piece at column `k` only if `k` is `j`. -/
private theorem not_mem_ent {j k : Fin 3} (hjk : j ≠ k)
    (hk : ∀ a, (![0, k.val] : Fin 2 → ℕ) a + S1x1.size a ≤ S1x3.size a) :
    ix2 (0 : Fin 1) j ∉ (Rect.unit (s := S1x3) ![0, k.val] S1x1.size hk).set := by
  rw [Rect.mem_set_unit]
  intro h
  have h1 := h ⟨1, by decide⟩
  change k.val ≤ j.val ∧ j.val < k.val + 1 at h1
  exact hjk (Fin.ext (by omega))

/-- A newest store to another column is passed over at `(0, j)`. -/
private theorem canon_ent_skip {j k : Fin 3} (hjk : j ≠ k)
    (hk : ∀ a, (![0, k.val] : Fin 2 → ℕ) a + S1x1.size a ≤ S1x3.size a)
    (w : S1x1.Idx → EReal) (L : List (View.Piece (Elt Ideal) S1x3 .f32)) :
    View.canon ((⟨Rect.unit (s := S1x3) ![0, k.val] S1x1.size hk, w⟩ : View.Piece (Elt Ideal) S1x3 .f32) :: L) (ix2 (0 : Fin 1) j)
      = View.canon L (ix2 (0 : Fin 1) j) :=
  View.canon_cons_of_not_mem _ L (not_mem_ent hjk hk)

/-- A newest store to column `j` gives, at `(0, j)`, its payload's one entry. -/
private theorem canon_ent_hit (j : Fin 3)
    (hj : ∀ a, (![0, j.val] : Fin 2 → ℕ) a + S1x1.size a ≤ S1x3.size a)
    (w : S1x1.Idx → EReal) (L : List (View.Piece (Elt Ideal) S1x3 .f32)) :
    View.canon ((⟨Rect.unit (s := S1x3) ![0, j.val] S1x1.size hj, w⟩ : View.Piece (Elt Ideal) S1x3 .f32) :: L) (ix2 (0 : Fin 1) j)
      = w (ix2 (0 : Fin 1) (0 : Fin 1)) := by
  have e := View.canon_cons_emb (Val := Elt Ideal) (Rect.unit (s := S1x3) ![0, j.val] S1x1.size hj) w L (ix2 (0 : Fin 1) (0 : Fin 1))
  rw [entEmb j hj] at e
  exact e

/-- A load of column `j`'s entry after the stores `L` reads what they leave at `(0, j)`. -/
private theorem readEnt (v : View sg κ sp S1x3 .f32) (L : List (View.Piece (Elt Ideal) S1x3 .f32)) (j : Fin 3)
    (hj : ∀ a, (![0, j.val] : Fin 2 → ℕ) a + S1x1.size a ≤ S1x3.size a) :
    v.readCov L (Rect.unit (s := S1x3) ![0, j.val] S1x1.size hj).toLoadRect (ix2 (0 : Fin 1) (0 : Fin 1))
      = View.canon L (ix2 (0 : Fin 1) j) := by
  rw [View.readCov_eq_canon']
  exact congrArg (View.canon L) (entEmb j hj)

/-- Three entry stores over a zeroed [1,3] array, each entry's payload its loaded old value plus an increment: every entry
    ends at its increment. -/
private theorem firstStepCnt (v : View sg κ sp S1x3 .f32)
    (h0 : ∀ a, (![0, 0] : Fin 2 → ℕ) a + S1x1.size a ≤ S1x3.size a)
    (h1 : ∀ a, (![0, 1] : Fin 2 → ℕ) a + S1x1.size a ≤ S1x3.size a)
    (h2 : ∀ a, (![0, 2] : Fin 2 → ℕ) a + S1x1.size a ≤ S1x3.size a)
    (hz : ∀ a, (![0, 0] : Fin 2 → ℕ) a + S1x3.size a ≤ S1x3.size a)
    (z : S1x3.Idx → EReal) (hzero : ∀ y, z y = 0)
    (f0 f1 f2 : (S1x1.Idx → EReal) → S1x1.Idx → EReal) (g : S1x3.Idx → EReal)
    (hf0 : ∀ a, f0 a (ix2 (0 : Fin 1) (0 : Fin 1)) = a (ix2 (0 : Fin 1) (0 : Fin 1)) + g (ix2 (0 : Fin 1) (0 : Fin 3)))
    (hf1 : ∀ a, f1 a (ix2 (0 : Fin 1) (0 : Fin 1)) = a (ix2 (0 : Fin 1) (0 : Fin 1)) + g (ix2 (0 : Fin 1) (1 : Fin 3)))
    (hf2 : ∀ a, f2 a (ix2 (0 : Fin 1) (0 : Fin 1)) = a (ix2 (0 : Fin 1) (0 : Fin 1)) + g (ix2 (0 : Fin 1) (2 : Fin 3)))
    (y : S1x3.Idx) :
    View.canon (Val := Elt Ideal) (e := .f32)
      [⟨(Rect.unit (s := S1x3) ![0, 2] S1x1.size h2), f2 (v.readCov (Val := Elt Ideal) [⟨(Rect.unit (s := S1x3) ![0, 1] S1x1.size h1), f1 (v.readCov (Val := Elt Ideal) [⟨(Rect.unit (s := S1x3) ![0, 0] S1x1.size h0), f0 (v.readCov (Val := Elt Ideal) [⟨(Rect.unit (s := S1x3) ![0, 0] S1x3.size hz), z⟩] (Rect.unit (s := S1x3) ![0, 0] S1x1.size h0).toLoadRect)⟩,
            ⟨(Rect.unit (s := S1x3) ![0, 0] S1x3.size hz), z⟩] (Rect.unit (s := S1x3) ![0, 1] S1x1.size h1).toLoadRect)⟩,
          ⟨(Rect.unit (s := S1x3) ![0, 0] S1x1.size h0), f0 (v.readCov (Val := Elt Ideal) [⟨(Rect.unit (s := S1x3) ![0, 0] S1x3.size hz), z⟩] (Rect.unit (s := S1x3) ![0, 0] S1x1.size h0).toLoadRect)⟩,
          ⟨(Rect.unit (s := S1x3) ![0, 0] S1x3.size hz), z⟩] (Rect.unit (s := S1x3) ![0, 2] S1x1.size h2).toLoadRect)⟩,
        ⟨(Rect.unit (s := S1x3) ![0, 1] S1x1.size h1), f1 (v.readCov (Val := Elt Ideal) [⟨(Rect.unit (s := S1x3) ![0, 0] S1x1.size h0), f0 (v.readCov (Val := Elt Ideal) [⟨(Rect.unit (s := S1x3) ![0, 0] S1x3.size hz), z⟩] (Rect.unit (s := S1x3) ![0, 0] S1x1.size h0).toLoadRect)⟩,
            ⟨(Rect.unit (s := S1x3) ![0, 0] S1x3.size hz), z⟩] (Rect.unit (s := S1x3) ![0, 1] S1x1.size h1).toLoadRect)⟩,
        ⟨(Rect.unit (s := S1x3) ![0, 0] S1x1.size h0), f0 (v.readCov (Val := Elt Ideal) [⟨(Rect.unit (s := S1x3) ![0, 0] S1x3.size hz), z⟩] (Rect.unit (s := S1x3) ![0, 0] S1x1.size h0).toLoadRect)⟩,
        ⟨(Rect.unit (s := S1x3) ![0, 0] S1x3.size hz), z⟩] y = g y := by
  obtain ⟨u, j, rfl⟩ : ∃ (u : Fin 1) (j : Fin 3), y = ix2 u j := ⟨y 0, y 1, eq_ix2 y⟩
  obtain rfl : u = 0 := Subsingleton.elim _ _
  have hZ : ∀ (L : List (View.Piece (Elt Ideal) S1x3 .f32)) (y : S1x3.Idx),
      View.canon ((⟨Rect.unit (s := S1x3) ![0, 0] S1x3.size hz, z⟩ : View.Piece (Elt Ideal) S1x3 .f32) :: L) y = 0 :=
    fun L y => (congrFun (View.canon_cons_unit_zero zero2 hz z L) y).trans (hzero y)
  have hj3 : ∀ j : Fin 3, j = 0 ∨ j = 1 ∨ j = 2 := by decide
  rcases hj3 j with rfl | rfl | rfl
  · refine (canon_ent_skip (k := 2) (by decide) h2 _ _).trans ?_
    refine (canon_ent_skip (k := 1) (by decide) h1 _ _).trans ?_
    refine (canon_ent_hit 0 h0 _ _).trans ?_
    refine (hf0 _).trans ?_
    refine (congrArg (fun t => t + g (ix2 (0 : Fin 1) (0 : Fin 3))) ?_).trans (zero_add _)
    exact (readEnt v _ 0 h0).trans (hZ _ _)
  · refine (canon_ent_skip (k := 2) (by decide) h2 _ _).trans ?_
    refine (canon_ent_hit 1 h1 _ _).trans ?_
    refine (hf1 _).trans ?_
    refine (congrArg (fun t => t + g (ix2 (0 : Fin 1) (1 : Fin 3))) ?_).trans (zero_add _)
    exact (readEnt v _ 1 h1).trans ((canon_ent_skip (k := 0) (by decide) h0 _ _).trans (hZ _ _))
  · refine (canon_ent_hit 2 h2 _ _).trans ?_
    refine (hf2 _).trans ?_
    refine (congrArg (fun t => t + g (ix2 (0 : Fin 1) (2 : Fin 3))) ?_).trans (zero_add _)
    exact (readEnt v _ 2 h2).trans ((canon_ent_skip (k := 1) (by decide) h1 _ _).trans
      ((canon_ent_skip (k := 0) (by decide) h0 _ _).trans (hZ _ _)))

end FirstStep

/-- A core's first step leaves the sum accumulator at one step from zero. -/
theorem soutA0 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : cond0_0 i) (hc1 : ¬cond0_1 i)
    (x0 : Vec Ideal S10000x128 .f32) (x1 : Vec Ideal S10000x1 .i32) :
    sout0_A_0 (F := Ideal) c i arg2 harg2 arg3 harg3 arg4 harg4 arg5 harg5 arg6 harg6 arg7 harg7 hc0 hc1 x0 x1 = stepSum x0 x1 (fun _ => 0) := by
  funext y
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [loadBlock harg2 x0, loadLabels harg3 x1]
  refine (firstStepSum arg6.view inb_S3x128_S1x128_0_0 inb_S3x128_S1x128_1_0 inb_S3x128_S1x128_2_0 inb_S3x128_S3x128_0_0
    (k0_pay1 (F := Ideal)) pay1_apply
    (fun a => k0_pay5 (F := Ideal) x0 x1 a) (fun a => k0_pay10 (F := Ideal) (k0_pay8 (F := Ideal) x0 x1) a)
    (fun a => k0_pay13 (F := Ideal) x0 (k0_pay3 (F := Ideal) x1) a)
    (fun y => ∑ r : Fin 10000, x0 (ix2 r (y 1)) * SegMean.hit (x1 (ix2 r (0 : Fin 1))) (y 0).val)
    (fun a d => pay5_apply x0 x1 a d)
    (fun a d => (pay10_apply _ a d).trans (congrArg (a (ix2 (0 : Fin 1) d) + ·) (pay8_apply x0 x1 d)))
    (fun a d => pay13_apply x0 x1 a d) y).trans ?_
  exact (zero_add _).symm

/-- A core's first step leaves the count accumulator at one step from zero. -/
theorem soutA1 (c : Dev nD) (i : grid0.Coords) (arg2 : Memref sig .tc .vmem S10000x128 .f32) (harg2 : arg2.IsWhole) (arg3 : Memref sig .tc .vmem S10000x1 .i32) (harg3 : arg3.IsWhole) (arg4 : Memref sig .tc .vmem S1x3x128 .f32) (harg4 : arg4.IsWhole) (arg5 : Memref sig .tc .vmem S1x1x3 .f32) (harg5 : arg5.IsWhole) (arg6 : Memref sig .tc .vmem S3x128 .f32) (harg6 : arg6.IsWhole) (arg7 : Memref sig .tc .vmem S1x3 .f32) (harg7 : arg7.IsWhole) (hc0 : cond0_0 i) (hc1 : ¬cond0_1 i)
    (x0 : Vec Ideal S10000x128 .f32) (x1 : Vec Ideal S10000x1 .i32) :
    sout0_A_1 (F := Ideal) c i arg2 harg2 arg3 harg3 arg4 harg4 arg5 harg5 arg6 harg6 arg7 harg7 hc0 hc1 x0 x1 = stepCnt x1 (fun _ => 0) := by
  funext y
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [loadLabels harg3 x1]
  refine (firstStepCnt arg7.view inb_S1x3_S1x1_0_0 inb_S1x3_S1x1_0_1 inb_S1x3_S1x1_0_2 inb_S1x3_S1x3_0_0
    (k0_pay2 (F := Ideal)) pay2_apply
    (fun a => k0_pay6 (F := Ideal) x1 a) (fun a => k0_pay11 (F := Ideal) (k0_pay9 (F := Ideal) x1) a)
    (fun a => k0_pay14 (F := Ideal) (k0_pay3 (F := Ideal) x1) a)
    (fun y => ∑ r : Fin 10000, SegMean.hit (x1 (ix2 r (0 : Fin 1))) (y 1).val)
    (fun a => pay6_apply x1 a)
    (fun a => (pay11_apply _ a).trans (congrArg (a (ix2 (0 : Fin 1) (0 : Fin 1)) + ·) (pay9_apply x1)))
    (fun a => pay14_apply x1 a) y).trans ?_
  exact (zero_add _).symm

end SegMean.Ker

end
-- ==== Proof.KerNames.lean ====
/-
  Names for what the kernel reads: the block of table rows and the block of label words at a grid point, and the two argument
  arrays.  Grid point `t` (of 50, core-major: `t = 25 · core + step`) reads rows `10000 t .. 10000 t + 9999`.
-/
import proofs.«422173_j38027640439209_3_alg».proof.Proof.Gen.KernelIdeal.Frame
import proofs.«422173_j38027640439209_3_alg».proof.Proof.SegSpec

noncomputable section

namespace SegMean.Ker

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The block of table rows the body finds at grid point `t`. -/
abbrev xblk (c : Dev nD) (t : Fin cfg0.N) : Vec Ideal S10000x128 .f32 := iblk m c 0 t
/-- The block of label words the body finds at grid point `t`. -/
abbrev lblk (c : Dev nD) (t : Fin cfg0.N) : Vec Ideal S10000x1 .i32 := iblk m c 1 t

/-- The table argument as launched. -/
abbrev tableArg (c : Dev nD) : (⟨2, ![500000, 128]⟩ : Shape).Idx → EReal := m ((c : Thread nD τ).loc main_arg0)
/-- The label argument as launched. -/
abbrev labelArg (c : Dev nD) : (⟨1, ![500000]⟩ : Shape).Idx → BitVec 32 := m ((c : Thread nD τ).loc main_arg1)

theorem point_lt (t : Fin cfg0.N) : t.val < 50 := lt_of_lt_of_eq t.isLt (show cfg0.N = 50 from N_0)

theorem row_lt (t : Fin cfg0.N) (r : Fin 10000) : t.val * 10000 + r.val < 500000 := by
  have := point_lt t; have := r.isLt; omega

end SegMean.Ker

end
-- ==== Proof.KerAcc.lean ====
/-
  The accumulators point by point.  At a core's first step they take one step from zero; at every other step one step from
  what the step before left; and at a core's last step the two output blocks receive the accumulators as they then stand.
  So after step `k` of core `c₀` the sum accumulator holds, for each class and column, the sum over the blocks
  `25 c₀ .. 25 c₀ + k` of the block's column sum over the class's rows, and the count accumulator the number of those rows.
-/
import proofs.«422173_j38027640439209_3_alg».proof.Proof.KerPieces
import proofs.«422173_j38027640439209_3_alg».proof.Proof.KerPiecesA
import proofs.«422173_j38027640439209_3_alg».proof.Proof.KerNames

set_option maxRecDepth 16384

noncomputable section

namespace SegMean.Ker

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- Block `t`'s column sums over each class's rows. -/
def bsum (c : Dev nD) (t : Fin cfg0.N) : Vec Ideal S3x128 .f32 :=
  fun y => ∑ r : Fin 10000, xblk m c t (ix2 r (y 1)) * SegMean.hit (lblk m c t (ix2 r (0 : Fin 1))) (y 0).val

/-- Block `t`'s number of rows of each class. -/
def bcnt (c : Dev nD) (t : Fin cfg0.N) : Vec Ideal S1x3 .f32 :=
  fun y => ∑ r : Fin 10000, SegMean.hit (lblk m c t (ix2 r (0 : Fin 1))) (y 1).val

/-- A core's first step leaves the accumulators at the block's own sums and counts. -/
theorem firstStep (c : Dev nD) (t : Fin cfg0.N) (h0 : t.val % 25 = 0) :
    (outsAt0 m c t.val t.isLt).2.2.1 = bsum m c t ∧ (outsAt0 m c t.val t.isLt).2.2.2 = bcnt m c t := by
  have h1 : ¬t.val % 25 = 24 := by omega
  rw [outsAt0_A m c t h0 h1]
  dsimp only
  refine ⟨(soutA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).trans ?_, (soutA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).trans ?_⟩
  · funext y; show (0 : EReal) + bsum m c t y = _; rw [zero_add]
  · funext y; show (0 : EReal) + bcnt m c t y = _; rw [zero_add]

/-- Every other step adds the block's sums and counts to what the step before left. -/
theorem nextStep (c : Dev nD) (t : Fin cfg0.N) (h0 : ¬t.val % 25 = 0) :
    (outsAt0 m c t.val t.isLt).2.2.1 = (fun y => (outsAt0 m c (t.val - 1) (Nat.lt_of_le_of_lt (Nat.sub_le _ _) t.isLt)).2.2.1 y + bsum m c t y)
    ∧ (outsAt0 m c t.val t.isLt).2.2.2 = (fun y => (outsAt0 m c (t.val - 1) (Nat.lt_of_le_of_lt (Nat.sub_le _ _) t.isLt)).2.2.2 y + bcnt m c t y) := by
  by_cases h1 : t.val % 25 = 24
  · rw [outsAt0_C m c t h0 h1]
    dsimp only
    exact ⟨soutC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      soutC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨soutB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
      soutB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A core's last step leaves in the two output blocks the accumulators as they stand after it. -/
theorem lastStep (c : Dev nD) (t : Fin cfg0.N) (h1 : t.val % 25 = 24) :
    (outsAt0 m c t.val t.isLt).1 = lift3 (outsAt0 m c t.val t.isLt).2.2.1
    ∧ (outsAt0 m c t.val t.isLt).2.1 = lift3c (outsAt0 m c t.val t.isLt).2.2.2 := by
  have h0 : ¬t.val % 25 = 0 := by omega
  rw [outsAt0_C m c t h0 h1]
  dsimp only
  refine ⟨(outC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_,
    (outC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
  · exact congrArg lift3 (soutC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm
  · exact congrArg lift3c (soutC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm

/-- Block `n`'s column sums over each class's rows, zero beyond the grid. -/
def bsumN (c : Dev nD) (n : ℕ) : Vec Ideal S3x128 .f32 := if h : n < cfg0.N then bsum m c ⟨n, h⟩ else fun _ => 0
/-- Block `n`'s number of rows of each class, zero beyond the grid. -/
def bcntN (c : Dev nD) (n : ℕ) : Vec Ideal S1x3 .f32 := if h : n < cfg0.N then bcnt m c ⟨n, h⟩ else fun _ => 0

theorem outsAt_congr (c : Dev nD) {n n' : ℕ} (e : n = n') (h : n < cfg0.N) (h' : n' < cfg0.N) :
    outsAt0 m c n h = outsAt0 m c n' h' := by subst e; rfl

/-- After step `k` of core `c₀` the accumulators hold the sums over blocks `25 c₀ .. 25 c₀ + k`. -/
theorem accClosed (c : Dev nD) (c0 : ℕ) : ∀ (k : ℕ) (_ : k < 25) (h : 25 * c0 + k < cfg0.N),
    (outsAt0 m c (25 * c0 + k) h).2.2.1 = (fun y => ∑ s ∈ Finset.range (k + 1), bsumN m c (25 * c0 + s) y)
    ∧ (outsAt0 m c (25 * c0 + k) h).2.2.2 = (fun y => ∑ s ∈ Finset.range (k + 1), bcntN m c (25 * c0 + s) y)
  | 0, _, h => by
    have hf := firstStep m c ⟨25 * c0 + 0, h⟩ (by show (25 * c0 + 0) % 25 = 0; omega)
    refine ⟨hf.1.trans ?_, hf.2.trans ?_⟩
    · funext y; rw [Finset.sum_range_one]; unfold bsumN; rw [dif_pos h]
    · funext y; rw [Finset.sum_range_one]; unfold bcntN; rw [dif_pos h]
  | k + 1, hk, h => by
    have hprev : 25 * c0 + k < cfg0.N := Nat.lt_of_succ_lt h
    obtain ⟨ih1, ih2⟩ := accClosed c c0 k (by omega) hprev
    have hn := nextStep m c ⟨25 * c0 + (k + 1), h⟩ (by show ¬(25 * c0 + (k + 1)) % 25 = 0; omega)
    have e := outsAt_congr m c (show 25 * c0 + (k + 1) - 1 = 25 * c0 + k by omega)
      (Nat.lt_of_le_of_lt (Nat.sub_le _ _) h) hprev
    refine ⟨hn.1.trans ?_, hn.2.trans ?_⟩
    · funext y
      show (outsAt0 m c (25 * c0 + (k + 1) - 1) _).2.2.1 y + bsum m c ⟨25 * c0 + (k + 1), h⟩ y = _
      rw [e, ih1, Finset.sum_range_succ _ (k + 1)]
      congr 1
      unfold bsumN; rw [dif_pos h]
    · funext y
      show (outsAt0 m c (25 * c0 + (k + 1) - 1) _).2.2.2 y + bcnt m c ⟨25 * c0 + (k + 1), h⟩ y = _
      rw [e, ih2, Finset.sum_range_succ _ (k + 1)]
      congr 1
      unfold bcntN; rw [dif_pos h]

end SegMean.Ker

end
-- ==== Proof.KerArrays.lean ====
/-
  The two arrays the kernel leaves.  Core `c₀` writes its blocks back once, after its last step: block `c₀` of the sums
  array [2,3,128] and of the counts array [2,1,3] receive the accumulators summed over the core's 25 blocks of rows.
-/
import proofs.«422173_j38027640439209_3_alg».proof.Proof.KerAcc
import Idealize.ShloMosaic.Lib.Pipeline.Value

set_option maxRecDepth 16384

noncomputable section

namespace SegMean.Ker

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- Entry `(c₀, j, d)` of the sums array: class `j`'s column-`d` sum over core `c₀`'s 25 blocks. -/
def sumsArr (c : Dev nD) : S2x3x128.Idx → EReal :=
  fun i => ∑ s ∈ Finset.range 25, bsumN m c (25 * (i 0).val + s) (ix2 (i 1) (i 2))

/-- Entry `(c₀, 0, j)` of the counts array: the number of class `j`'s rows in core `c₀`'s 25 blocks. -/
def cntsArr (c : Dev nD) : S2x1x3.Idx → EReal :=
  fun i => ∑ s ∈ Finset.range 25, bcntN m c (25 * (i 0).val + s) (ix2 (i 1) (i 2))

/-- The output blocks' indices, decided over the grid: point `t` is on core `t / 25`. -/
theorem idx2 : ∀ t : Fin cfg0.N, win0_2.index t (0 : Fin 3) = t.val / 25 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 25 ∧ win0_3.index t (1 : Fin 3) = 0 ∧ win0_3.index t (2 : Fin 3) = 0 :=
  (by decide +kernel : ∀ t : Fin grid0.N, _)

/-- What a writing point writes back to window 2's array is its block of `sumsArr`. -/
theorem flushed2_eq (c : Dev nD) (t : Fin cfg0.N) (hf : (cfg0.win 2).flush t = true) :
    (dats m 0 c).flushed 2 t = ((cfg0.win 2).blk t).view.read (Elt Ideal) (sumsArr m c) := by
  show (cfg0.win 2).cut (grid0.coords t) ((dats m 0 c).after 2 t) = _
  rw [after0_2]
  have h1 : t.val % 25 = 24 := (flush0_2 t).mp hf
  rw [(lastStep m c t h1).1]
  have hN := point_lt t
  have e : t.val = 25 * (t.val / 25) + 24 := by omega
  have h' : 25 * (t.val / 25) + 24 < cfg0.N := lt_of_eq_of_lt e.symm t.isLt
  rw [outsAt_congr m c e t.isLt h', (accClosed m c (t.val / 25) 24 (by decide) h').1]
  obtain ⟨e0, e1, e2⟩ := idx2 t
  funext j
  have hemb : ((cfg0.win 2).blk t).view.emb j = ix3 (⟨t.val / 25, by omega⟩ : Fin 2) (j 1) (j 2) := by
    funext a; apply Fin.ext
    match a with
    | ⟨0, _⟩ => show win0_2.index t (0 : Fin 3) * 1 + 1 * (j 0).val = t.val / 25; have hj : (j 0).val < 1 := (j 0).isLt; omega
    | ⟨1, _⟩ => show win0_2.index t (1 : Fin 3) * 3 + 1 * (j 1).val = (j 1).val; omega
    | ⟨2, _⟩ => show win0_2.index t (2 : Fin 3) * 128 + 1 * (j 2).val = (j 2).val; omega
  show lift3 _ j = sumsArr m c (((cfg0.win 2).blk t).view.emb j)
  rw [hemb]
  rfl

/-- Every entry of window 2's array lies in the block its core writes back after its last step. -/
theorem cover2 (c : Dev nD) (i : S2x3x128.Idx) :
    ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 128 := (i 2).isLt
  have hlt : 25 * (i 0).val + 24 < cfg0.N := by rw [show cfg0.N = 50 from N_0]; omega
  refine ⟨⟨25 * (i 0).val + 24, hlt⟩, (flush0_2 _).mpr (by show (25 * (i 0).val + 24) % 25 = 24; omega), ?_⟩
  obtain ⟨e0, e1, e2⟩ := idx2 ⟨25 * (i 0).val + 24, hlt⟩
  have e0' : win0_2.index ⟨25 * (i 0).val + 24, hlt⟩ (0 : Fin 3) = (i 0).val := by rw [e0]; show (25 * (i 0).val + 24) / 25 = _; omega
  show i ∈ ((View.whole main_v1_0).slice (win0_2.rect ⟨25 * (i 0).val + 24, hlt⟩)).set
  rw [View.set_slice_whole, Rect.mem_set_unit]
  intro a
  match a with
  | ⟨0, _⟩ => show win0_2.index ⟨25 * (i 0).val + 24, hlt⟩ (0 : Fin 3) * 1 ≤ (i 0).val ∧ (i 0).val < win0_2.index ⟨25 * (i 0).val + 24, hlt⟩ (0 : Fin 3) * 1 + 1; omega
  | ⟨1, _⟩ => show win0_2.index ⟨25 * (i 0).val + 24, hlt⟩ (1 : Fin 3) * 3 ≤ (i 1).val ∧ (i 1).val < win0_2.index ⟨25 * (i 0).val + 24, hlt⟩ (1 : Fin 3) * 3 + 3; omega
  | ⟨2, _⟩ => show win0_2.index ⟨25 * (i 0).val + 24, hlt⟩ (2 : Fin 3) * 128 ≤ (i 2).val ∧ (i 2).val < win0_2.index ⟨25 * (i 0).val + 24, hlt⟩ (2 : Fin 3) * 128 + 128; omega

/-- Window 2's array after the run. -/
theorem final2 (c : Dev nD) : (dats m 0 c).arrAt 2 cfg0.N = sumsArr m c :=
  (dats m 0 c).arrAt_eq_of_cover 2 (sumsArr m c) (flushed2_eq m c) (cover2 c)

/-- What a writing point writes back to window 3's array is its block of `cntsArr`. -/
theorem flushed3_eq (c : Dev nD) (t : Fin cfg0.N) (hf : (cfg0.win 3).flush t = true) :
    (dats m 0 c).flushed 3 t = ((cfg0.win 3).blk t).view.read (Elt Ideal) (cntsArr m c) := by
  show (cfg0.win 3).cut (grid0.coords t) ((dats m 0 c).after 3 t) = _
  rw [after0_3]
  have h1 : t.val % 25 = 24 := (flush0_3 t).mp hf
  rw [(lastStep m c t h1).2]
  have hN := point_lt t
  have e : t.val = 25 * (t.val / 25) + 24 := by omega
  have h' : 25 * (t.val / 25) + 24 < cfg0.N := lt_of_eq_of_lt e.symm t.isLt
  rw [outsAt_congr m c e t.isLt h', (accClosed m c (t.val / 25) 24 (by decide) h').2]
  obtain ⟨e0, e1, e2⟩ := idx3 t
  funext j
  have hemb : ((cfg0.win 3).blk t).view.emb j = ix3 (⟨t.val / 25, by omega⟩ : Fin 2) (j 1) (j 2) := by
    funext a; apply Fin.ext
    match a with
    | ⟨0, _⟩ => show win0_3.index t (0 : Fin 3) * 1 + 1 * (j 0).val = t.val / 25; have hj : (j 0).val < 1 := (j 0).isLt; omega
    | ⟨1, _⟩ => show win0_3.index t (1 : Fin 3) * 1 + 1 * (j 1).val = (j 1).val; omega
    | ⟨2, _⟩ => show win0_3.index t (2 : Fin 3) * 3 + 1 * (j 2).val = (j 2).val; omega
  show lift3c _ j = cntsArr m c (((cfg0.win 3).blk t).view.emb j)
  rw [hemb]
  rfl

/-- Every entry of window 3's array lies in the block its core writes back after its last step. -/
theorem cover3 (c : Dev nD) (i : S2x1x3.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 3 := (i 2).isLt
  have hlt : 25 * (i 0).val + 24 < cfg0.N := by rw [show cfg0.N = 50 from N_0]; omega
  refine ⟨⟨25 * (i 0).val + 24, hlt⟩, (flush0_3 _).mpr (by show (25 * (i 0).val + 24) % 25 = 24; omega), ?_⟩
  obtain ⟨e0, e1, e2⟩ := idx3 ⟨25 * (i 0).val + 24, hlt⟩
  have e0' : win0_3.index ⟨25 * (i 0).val + 24, hlt⟩ (0 : Fin 3) = (i 0).val := by rw [e0]; show (25 * (i 0).val + 24) / 25 = _; omega
  show i ∈ ((View.whole main_v1_1).slice (win0_3.rect ⟨25 * (i 0).val + 24, hlt⟩)).set
  rw [View.set_slice_whole, Rect.mem_set_unit]
  intro a
  match a with
  | ⟨0, _⟩ => show win0_3.index ⟨25 * (i 0).val + 24, hlt⟩ (0 : Fin 3) * 1 ≤ (i 0).val ∧ (i 0).val < win0_3.index ⟨25 * (i 0).val + 24, hlt⟩ (0 : Fin 3) * 1 + 1; omega
  | ⟨1, _⟩ => show win0_3.index ⟨25 * (i 0).val + 24, hlt⟩ (1 : Fin 3) * 1 ≤ (i 1).val ∧ (i 1).val < win0_3.index ⟨25 * (i 0).val + 24, hlt⟩ (1 : Fin 3) * 1 + 1; omega
  | ⟨2, _⟩ => show win0_3.index ⟨25 * (i 0).val + 24, hlt⟩ (2 : Fin 3) * 3 ≤ (i 2).val ∧ (i 2).val < win0_3.index ⟨25 * (i 0).val + 24, hlt⟩ (2 : Fin 3) * 3 + 3; omega

/-- Window 3's array after the run. -/
theorem final3 (c : Dev nD) : (dats m 0 c).arrAt 3 cfg0.N = cntsArr m c :=
  (dats m 0 c).arrAt_eq_of_cover 3 (cntsArr m c) (flushed3_eq m c) (cover3 c)

end SegMean.Ker

end
-- ==== Proof.KerBlocks.lean ====
/-
  A grid point's blocks are slices of the argument arrays: point `t` holds table rows and label words `10000 t + r`.
-/
import proofs.«422173_j38027640439209_3_alg».proof.Proof.KerNames
import Idealize.ShloMosaic.Lib.Pipeline.Value
import Idealize.ShloMosaic.Lib.StableHlo.Run

noncomputable section

namespace SegMean.Ker

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The table's block index at grid point `t = 25 · core + step` is `(t, 0)`: all 50 points checked. -/
private theorem idx_table : ∀ t : Fin cfg0.N, win0_0.index t (0 : Fin 2) = t.val ∧ win0_0.index t (1 : Fin 2) = 0 :=
  (by decide +kernel : ∀ t : Fin grid0.N, _)

/-- The label column's block index at grid point `t` is `(t, 0)` as well. -/
private theorem idx_label : ∀ t : Fin cfg0.N, win0_1.index t (0 : Fin 2) = t.val ∧ win0_1.index t (1 : Fin 2) = 0 :=
  (by decide +kernel : ∀ t : Fin grid0.N, _)

/-- A vector of `500000` words laid out as a `[500000, 1]` column keeps each word at its position: entry `(e, 0)`
    has row-major position `e · 1 + 0 = e`. -/
private theorem column_apply (L : S500000.Idx → BitVec 32) (h : S500000.ShapeCasts S500000x1) (e : Fin 500000) :
    shapeCast S500000x1 L h (ix2 e (0 : Fin 1)) = L (ix1 e) := by
  refine shapeCast_apply L h (ix2 e (0 : Fin 1)) (ix1 e) ?_
  rw [Shape.rowMajor_val_two, Shape.rowMajor_val_one]
  show e.val = e.val * 1 + 0
  omega

/-- The label column the grid reads is the label argument laid out as `[500000, 1]`: the one operation before the
    grid is that change of layout. -/
private theorem labels_entry (c : Dev nD) :
    (V m c main_v0 : S500000x1.Idx → BitVec 32)
      = shapeCast S500000x1 (m ((c : Thread nD τ).loc main_arg1)) shapeCasts_S500000_S500000x1 := by
  show StableHlo.after hostOps0 (fun b => m (c, b)) (Proc.devRef .tc main_v0) = _
  after_results
  rfl

/-- Entry `(r, d)` of the table block at point `t` is the table's entry `(10000 t + r, d)`. -/
theorem xblk_apply (c : Dev nD) (t : Fin cfg0.N) (r : Fin 10000) (d : Fin 128) :
    xblk m c t (ix2 r d) = tableArg m c (ix2 (⟨t.val * 10000 + r.val, row_lt t r⟩ : Fin 500000) d) := by
  unfold xblk iblk
  -- a block read at an entry is the array read where the block's rectangle puts that entry
  show V m c main_arg0 (((cfg0.win 0).blk t).view.emb (ix2 r d)) = _
  rw [V_main_arg0]
  show tableArg m c (((cfg0.win 0).blk t).view.emb (ix2 r d)) = _
  refine congrArg (tableArg m c) ?_
  obtain ⟨e0, e1⟩ := idx_table t
  -- per axis: block index × block size + the coordinate inside the block
  funext a; apply Fin.ext
  match a with
  | ⟨0, _⟩ => show win0_0.index t (0 : Fin 2) * 10000 + 1 * r.val = t.val * 10000 + r.val; omega
  | ⟨1, _⟩ => show win0_0.index t (1 : Fin 2) * 128 + 1 * d.val = d.val; omega

/-- Entry `(r, 0)` of the label block at point `t` is label word `10000 t + r`. -/
theorem lblk_apply (c : Dev nD) (t : Fin cfg0.N) (r : Fin 10000) :
    lblk m c t (ix2 r (0 : Fin 1)) = labelArg m c (ix1 (⟨t.val * 10000 + r.val, row_lt t r⟩ : Fin 500000)) := by
  unfold lblk iblk
  show (V m c main_v0 : S500000x1.Idx → BitVec 32) (((cfg0.win 1).blk t).view.emb (ix2 r (0 : Fin 1))) = _
  rw [labels_entry]
  -- entry `(10000 t + r, 0)` of the column is word `10000 t + r`; what is left is that the block's entry sits there
  refine Eq.trans ?_ (column_apply (labelArg m c) shapeCasts_S500000_S500000x1 ⟨t.val * 10000 + r.val, row_lt t r⟩)
  refine congrArg (shapeCast S500000x1 (labelArg m c) shapeCasts_S500000_S500000x1) ?_
  obtain ⟨e0, e1⟩ := idx_label t
  funext a; apply Fin.ext
  match a with
  | ⟨0, _⟩ => show win0_1.index t (0 : Fin 2) * 10000 + 1 * r.val = t.val * 10000 + r.val; omega
  | ⟨1, _⟩ => show win0_1.index t (1 : Fin 2) * 1 + 1 * 0 = 0; omega

end SegMean.Ker

end
-- ==== Proof.SegRegroup.lean ====
/-
  One sum over 500000 rows is the sum over 50 blocks of 10000 consecutive rows of the block's sum.
-/
import Mathlib.Algebra.BigOperators.Fin
import Mathlib.Data.EReal.Basic

namespace SegMean

/-- A sum over `m * n` consecutive rows is the sum over `m` blocks of `n` consecutive rows of the block's sum: row
    `t * n + r` is row `r` of block `t`, and every row is of that form exactly once. -/
private theorem sum_blocks {M : Type*} [AddCommMonoid M] (m n : Nat) (f : Fin (m * n) → M) :
    ∑ e : Fin (m * n), f e
      = ∑ t : Fin m, ∑ r : Fin n, f ⟨t.val * n + r.val, by
          have ht : (t.val + 1) * n ≤ m * n := Nat.mul_le_mul_right n t.isLt
          have hr := r.isLt
          rw [Nat.add_mul, Nat.one_mul] at ht
          omega⟩ := by
  rw [← Equiv.sum_comp finProdFinEquiv f, Fintype.sum_prod_type]
  refine Finset.sum_congr rfl fun t _ => Finset.sum_congr rfl fun r _ => ?_
  refine congrArg f (Fin.ext ?_)
  show r.val + n * t.val = t.val * n + r.val
  rw [Nat.mul_comm, Nat.add_comm]

/-- Rows grouped into 50 consecutive blocks of 10000: block `t` holds rows `10000 t .. 10000 t + 9999`. -/
theorem sum_rows_blocks (g : Fin 500000 → EReal) :
    ∑ e : Fin 500000, g e = ∑ t : Fin 50, ∑ r : Fin 10000, g ⟨t.val * 10000 + r.val, by omega⟩ := by
  exact sum_blocks 50 10000 g

end SegMean
-- ==== Proof.KerSums.lean ====
/-
  The kernel's two arrays, summed over the two cores, are the class sums and the class counts: each core's array entry is a
  sum over its 25 blocks, each block's entry a sum over its 10000 rows, and 2 · 25 · 10000 consecutive rows are all the rows.
-/
import proofs.«422173_j38027640439209_3_alg».proof.Proof.KerArrays
import proofs.«422173_j38027640439209_3_alg».proof.Proof.KerBlocks
import proofs.«422173_j38027640439209_3_alg».proof.Proof.SegRegroup
import Idealize.ShloMosaic.PureOps.Ideal.Laws
import Idealize.ShloMosaic.Lib.Pipeline.Value

set_option maxRecDepth 16384

noncomputable section

namespace SegMean.Ker

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

theorem rows_lt (t : Fin 50) (r : Fin 10000) : t.val * 10000 + r.val < 500000 := by
  have := t.isLt; have := r.isLt; omega

/-- The 50 blocks' column sums over a class's rows add up to the class sum. -/
theorem blocks_sum (c : Dev nD) (j : Fin 3) (d : Fin 128) :
    ∑ n ∈ Finset.range 50, bsumN m c n (ix2 j d) = SegMean.classSum (tableArg m c) (labelArg m c) (ix2 j d) := by
  calc ∑ n ∈ Finset.range 50, bsumN m c n (ix2 j d)
      = ∑ t : Fin 50, bsumN m c t.val (ix2 j d) := Finset.sum_range _
    _ = ∑ t : Fin 50, ∑ r : Fin 10000,
          (fun e : Fin 500000 => tableArg m c (ix2 e d) * SegMean.hit (labelArg m c (ix1 e)) j.val) ⟨t.val * 10000 + r.val, rows_lt t r⟩ := by
        refine Finset.sum_congr rfl fun t _ => ?_
        have ht : t.val < cfg0.N := by rw [show cfg0.N = 50 from N_0]; exact t.isLt
        unfold bsumN; rw [dif_pos ht]
        unfold bsum
        refine Finset.sum_congr rfl fun r _ => ?_
        show xblk m c ⟨t.val, ht⟩ (ix2 r d) * SegMean.hit (lblk m c ⟨t.val, ht⟩ (ix2 r (0 : Fin 1))) j.val = _
        rw [xblk_apply, lblk_apply]
    _ = ∑ e : Fin 500000, tableArg m c (ix2 e d) * SegMean.hit (labelArg m c (ix1 e)) j.val :=
      (SegMean.sum_rows_blocks (fun e : Fin 500000 => tableArg m c (ix2 e d) * SegMean.hit (labelArg m c (ix1 e)) j.val)).symm
    _ = _ := rfl

/-- The 50 blocks' numbers of a class's rows add up to the class count. -/
theorem blocks_count (c : Dev nD) (j : Fin 3) (d : Fin 128) :
    ∑ n ∈ Finset.range 50, bcntN m c n (ix2 (0 : Fin 1) j) = SegMean.classCount (labelArg m c) (ix2 j d) := by
  calc ∑ n ∈ Finset.range 50, bcntN m c n (ix2 (0 : Fin 1) j)
      = ∑ t : Fin 50, bcntN m c t.val (ix2 (0 : Fin 1) j) := Finset.sum_range _
    _ = ∑ t : Fin 50, ∑ r : Fin 10000,
          (fun e : Fin 500000 => SegMean.hit (labelArg m c (ix1 e)) j.val) ⟨t.val * 10000 + r.val, rows_lt t r⟩ := by
        refine Finset.sum_congr rfl fun t _ => ?_
        have ht : t.val < cfg0.N := by rw [show cfg0.N = 50 from N_0]; exact t.isLt
        unfold bcntN; rw [dif_pos ht]
        unfold bcnt
        refine Finset.sum_congr rfl fun r _ => ?_
        show SegMean.hit (lblk m c ⟨t.val, ht⟩ (ix2 r (0 : Fin 1))) j.val = _
        rw [lblk_apply]
    _ = ∑ e : Fin 500000, SegMean.hit (labelArg m c (ix1 e)) j.val :=
      (SegMean.sum_rows_blocks (fun e : Fin 500000 => SegMean.hit (labelArg m c (ix1 e)) j.val)).symm
    _ = _ := rfl

/-- Two cores of 25 blocks are the 50 blocks. -/
theorem two_cores (f : ℕ → EReal) :
    (∑ s ∈ Finset.range 25, f (25 * 0 + s)) + ∑ s ∈ Finset.range 25, f (25 * 1 + s) = ∑ n ∈ Finset.range 50, f n := by
  rw [show (50 : ℕ) = 25 + 25 from rfl, Finset.sum_range_add]
  congr 1 <;> exact Finset.sum_congr rfl fun s _ => by simp

/-- The sums array added over the cores is the class sums. -/
theorem ker_sums (c : Dev nD) :
    Host.reduceAdd (F := Ideal) (sumsArr m c) (constant S_ .f32 0x00000000#32) reducesTo_S2x3x128_S3x128_d0 h_S_
      = SegMean.classSum (tableArg m c) (labelArg m c) := by
  funext y
  obtain ⟨j, d, rfl⟩ : ∃ (j : Fin 3) (d : Fin 128), y = ix2 j d := ⟨y 0, y 1, eq_ix2 y⟩
  rw [← blocks_sum, ← two_cores]
  simp only [Host.reduceAdd, Ideal.hostReduceAdd_def]
  rw [Ideal.hostReduceAdd_single reducesTo_S2x3x128_S3x128_d0 (by decide)]
  have e2 : ∀ f : Fin 2 → EReal, ∑ k : Fin 2, f k = f 0 + f 1 := Fin.sum_univ_two
  refine (congrArg (_ + ·) (e2 _)).trans ?_
  show (Ideal.ofBits .f32 0x00000000#32 : EReal) + _ = _
  rw [Ideal.ofBits_zero_f32, zero_add]
  rfl

/-- The counts array added over the cores, laid out as a column and spread over the columns, is the class counts. -/
theorem ker_counts (c : Dev nD) :
    broadcastInDim S3x128 ![0, 1] bcast_S3x1_S3x128_0_1
        (shapeCast S3x1 (Host.reduceAdd (F := Ideal) (cntsArr m c) (constant S_ .f32 0x00000000#32) reducesTo_S2x1x3_S1x3_d0 h_S_) shapeCasts_S1x3_S3x1)
      = SegMean.classCount (labelArg m c) := by
  funext y
  obtain ⟨j, d, rfl⟩ : ∃ (j : Fin 3) (d : Fin 128), y = ix2 j d := ⟨y 0, y 1, eq_ix2 y⟩
  refine (broadcastInDim_apply _ bcast_S3x1_S3x128_0_1 _ (ix2 j d) (ix2 j (0 : Fin 1)) (fun a => match a with
    | ⟨0, _⟩ => by show j.val = if (3 : Nat) = 1 then 0 else j.val; rw [if_neg (by decide)]
    | ⟨1, _⟩ => by show 0 = if (1 : Nat) = 1 then 0 else d.val; rw [if_pos rfl])).trans ?_
  refine (shapeCast_apply _ shapeCasts_S1x3_S3x1 (ix2 j (0 : Fin 1)) (ix2 (0 : Fin 1) j) (by
    rw [Shape.rowMajor_val_two, Shape.rowMajor_val_two]; show 0 * 3 + j.val = j.val * 1 + 0; omega)).trans ?_
  rw [← blocks_count m c j d, ← two_cores]
  simp only [Host.reduceAdd, Ideal.hostReduceAdd_def]
  rw [Ideal.hostReduceAdd_single reducesTo_S2x1x3_S1x3_d0 (by decide)]
  have e2 : ∀ f : Fin 2 → EReal, ∑ k : Fin 2, f k = f 0 + f 1 := Fin.sum_univ_two
  refine (congrArg (_ + ·) (e2 _)).trans ?_
  show (Ideal.ofBits .f32 0x00000000#32 : EReal) + _ = _
  rw [Ideal.ofBits_zero_f32, zero_add]
  rfl

end SegMean.Ker

end
-- ==== Proof.KerRun.lean ====
/-
  The idealized kernel's run, with its results named: the normalised class means computed from the class sums and the class
  counts of the argument arrays, and the class indices.
-/
import proofs.«422173_j38027640439209_3_alg».proof.Proof.KerSums
import Idealize.ShloMosaic.Lib.StableHlo.Run

set_option maxRecDepth 16384

noncomputable section

namespace SegMean.Ker

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- From sums `S` and counts `D` (spread over the columns): the class means `S / D`, each row divided by the larger of its
    Euclidean norm and the small constant. -/
def meansNormalised (S D : FVec Ideal S3x128 .f32) : FVec Ideal S3x128 .f32 :=
  Host.divf (Host.divf S D)
    (broadcastInDim S3x128 ![0, 1] bcast_S3x1_S3x128_0_1
      (maximumf
        (Host.sqrt (broadcastInDim S3x1 ![0] bcast_S3_S3x1_0
          (Host.reduceAdd (mulf (Host.divf S D) (Host.divf S D)) (constant S_ .f32 0x00000000#32) reducesTo_S3x128_S3_d1 h_S_)))
        (broadcastInDim S3x1 ![] bcast_S_S3x1 (constant S_ .f32 0x2B8CBCCC#32))))

/-- The first result after the host operations that follow the region. -/
theorem ker_result (c : Dev nD) :
    Pipeline.afterTail₀ cfgs (dats m) 0 (V0 m) [hostOps1] c main_v14
      = meansNormalised (SegMean.classSum (tableArg m c) (labelArg m c)) (SegMean.classCount (labelArg m c)) := by
  unfold Pipeline.afterTail₀
  show StableHlo.after hostOps1 _ (Proc.devRef .tc main_v14) = _
  after_results
  have hA2 : Pipeline.withArrays (cfgs 0).spec c (V0 m c) (fun w => (dats m 0 c).arrAt w (cfgs 0).N) (Proc.devRef .tc main_v1_0)
      = sumsArr m c := (Pipeline.withArrays_arr spec0 launch0.win.arr_inj c _ _ 2).trans (final2 m c)
  have hA3 : Pipeline.withArrays (cfgs 0).spec c (V0 m c) (fun w => (dats m 0 c).arrAt w (cfgs 0).N) (Proc.devRef .tc main_v1_1)
      = cntsArr m c := (Pipeline.withArrays_arr spec0 launch0.win.arr_inj c _ _ 3).trans (final3 m c)
  rw [← ker_sums m c, ← ker_counts m c, ← hA2, ← hA3]
  rfl

/-- The second result: the class indices. -/
theorem ker_iota (c : Dev nD) :
    Pipeline.afterTail₀ cfgs (dats m) 0 (V0 m) [hostOps1] c main_v15 = iotaInDim S3 32 0 := by
  unfold Pipeline.afterTail₀
  show StableHlo.after hostOps1 _ (Proc.devRef .tc main_v15) = _
  after_results <;> rfl

/-- Every weakly fair execution of the idealized kernel ends with the normalised class means of the argument arrays, the
    class indices, and the arguments unchanged. -/
theorem ker_run : θ_run defs (onTc (τ := τ) (main (F := Ideal))) ⟨m, fun _ => 0, ρ⟩ fun r => ∀ c : Dev nD,
    r.2.mem ((c.tc : Thread nD τ).loc main_v14)
        = meansNormalised (SegMean.classSum (tableArg m c) (labelArg m c)) (SegMean.classCount (labelArg m c))
      ∧ r.2.mem ((c.tc : Thread nD τ).loc main_v15) = iotaInDim S3 32 0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 (Pipeline.mem_restRefs_of main_v14 (by decide) (by decide))).trans (ker_result m c),
      ((h c).2 main_v15 (Pipeline.mem_restRefs_of main_v15 (by decide) (by decide))).trans (ker_iota m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end SegMean.Ker

end
-- ==== Proof.LibSegSumRows.lean ====
/-
  Rows of a table gathered by index, and rows added into a table by index, each read at one entry.

  `x[idx]` on an `[N, C]` table with `E` start words takes, for entry `(e, k)`, row `idx e` of the table (read signed and
  clamped into `[0, N − 1]`) at column `k`.  The accumulating scatter of `E` update rows into an `[N, C]` table adds, at entry
  `(i, k)`, column `k` of every update row `e` whose index word, read signed and NOT clamped, is `i`; an update whose word
  falls outside the table is dropped.  Both are stated for any `N`, `E`, `C` and any word width.
-/
import Idealize.ShloMosaic.PureOps.Ideal
import Idealize.ShloMosaic.Lib.ValueIdx

noncomputable section

namespace SegSumRows

open Idealize.ShloMosaic Idealize.ShloMosaic.ValueIdx

/-- The dimension numbers of `x[idx]` along axis 0 of an `[N, C]` table with start indices `[E, 1]` and result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: column `k` of the row the start word `idx[e, 0]` selects, read signed and clamped into
    `[0, N − 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    -- axis 0: the clamped start word; no batching coordinate, and the axis is collapsed, so no offset coordinate
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not in the start index map, so the start is 0; not a batching axis; the offset coordinate is the column
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show (1 : Fin 2) ∉ ([0] : List (Fin 2)) by decide)]
    have ho : (rowGatherDims N E C wf).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [hs, ho]; omega

/-- The dimension numbers of the scatter of `E` update rows `[E, C]` into an `[N, C]` table by scatter indices `[E, 1]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter

variable {N E C w : Nat} (wf : ScatterDims.WF ⟨2, ![N, C]⟩ ⟨2, ![E, 1]⟩ ⟨2, ![E, C]⟩ [1] [0] [0] 1)

/-- On axis 0 the window of update `(e, k')` starts at row `e`'s index word, read signed. -/
theorem rowScatter_start0 (idx : IVec ⟨2, ![E, 1]⟩ w) (e : Fin E) (k' : Fin C) :
    (rowScatterDims N E C wf).start (ix2 e k') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter map: the window starts at 0 there. -/
theorem rowScatter_start1 (idx : IVec ⟨2, ![E, 1]⟩ w) (e : Fin E) (k' : Fin C) :
    (rowScatterDims N E C wf).start (ix2 e k') idx 1 = 0 := by
  unfold ScatterDims.start
  rw [dif_neg (show (1 : Fin 2) ∉ ([0] : List (Fin 2)) by decide)]

/-- Axis 0 is an inserted window axis: no window coordinate. -/
theorem rowScatter_window0 (e : Fin E) (k' : Fin C) : (rowScatterDims N E C wf).window (ix2 e k') 0 = 0 := by
  have h0 : (0 : Fin 2) ∉ (rowScatterDims N E C wf).sKept := by
    show (0 : Fin 2) ∉ (List.finRange 2).filter (· ∉ ([0] : List (Fin 2)))
    decide
  unfold ScatterDims.window
  rw [dif_neg h0]

/-- On axis 1 the window coordinate is the update's column. -/
theorem rowScatter_window1 (e : Fin E) (k' : Fin C) : (rowScatterDims N E C wf).window (ix2 e k') 1 = k'.val := by
  have h1 : (1 : Fin 2) ∈ (rowScatterDims N E C wf).sKept := by
    show (1 : Fin 2) ∈ (List.finRange 2).filter (· ∉ ([0] : List (Fin 2)))
    decide
  unfold ScatterDims.window
  rw [dif_pos h1]
  rfl

/-- WHERE AN UPDATE LANDS: update `(e, k')` lands at table entry `(i0, k)` exactly when it is in column `k` and row `e`'s
    index word, read signed, is `i0`. -/
theorem rowScatter_resultIdx?_iff (idx : IVec ⟨2, ![E, 1]⟩ w) (e : Fin E) (k' : Fin C) (i0 : Fin N) (k : Fin C) :
    (rowScatterDims N E C wf).resultIdx? (ix2 e k') idx = some (ix2 i0 k)
      ↔ k' = k ∧ (idx (ix2 e (0 : Fin 1))).toInt = (i0.val : Int) := by
  unfold ScatterDims.resultIdx?
  constructor
  · intro h
    split at h
    · rename_i hin
      have hf := Option.some.inj h
      have h0 : ((rowScatterDims N E C wf).start (ix2 e k') idx 0
          + ((rowScatterDims N E C wf).window (ix2 e k') 0 : Nat)).toNat = i0.val :=
        congrArg (fun f => (f (0 : Fin 2)).val) hf
      have h1 : ((rowScatterDims N E C wf).start (ix2 e k') idx 1
          + ((rowScatterDims N E C wf).window (ix2 e k') 1 : Nat)).toNat = k.val :=
        congrArg (fun f => (f (1 : Fin 2)).val) hf
      have hin0 := (hin 0).1
      rw [rowScatter_start0, rowScatter_window0] at h0 hin0
      rw [rowScatter_start1, rowScatter_window1] at h1
      exact ⟨Fin.ext (by omega), by omega⟩
    · exact absurd h (by simp)
  · rintro ⟨rfl, ht⟩
    have hin : ∀ a : Fin 2, 0 ≤ (rowScatterDims N E C wf).start (ix2 e k') idx a
          + ((rowScatterDims N E C wf).window (ix2 e k') a : Nat)
        ∧ (rowScatterDims N E C wf).start (ix2 e k') idx a + ((rowScatterDims N E C wf).window (ix2 e k') a : Nat)
          < (((⟨2, ![N, C]⟩ : Shape).size a : Nat) : Int) := by
      intro a
      match a with
      | ⟨0, _⟩ =>
        show 0 ≤ (rowScatterDims N E C wf).start (ix2 e k') idx 0 + ((rowScatterDims N E C wf).window (ix2 e k') 0 : Nat)
          ∧ (rowScatterDims N E C wf).start (ix2 e k') idx 0 + ((rowScatterDims N E C wf).window (ix2 e k') 0 : Nat)
            < ((N : Nat) : Int)
        rw [rowScatter_start0, rowScatter_window0, ht]
        have := i0.isLt
        omega
      | ⟨1, _⟩ =>
        show 0 ≤ (rowScatterDims N E C wf).start (ix2 e k') idx 1 + ((rowScatterDims N E C wf).window (ix2 e k') 1 : Nat)
          ∧ (rowScatterDims N E C wf).start (ix2 e k') idx 1 + ((rowScatterDims N E C wf).window (ix2 e k') 1 : Nat)
            < ((C : Nat) : Int)
        rw [rowScatter_start1, rowScatter_window1]
        have := k'.isLt
        omega
    rw [dif_pos hin]
    congr 1
    funext a
    refine Fin.ext ?_
    match a with
    | ⟨0, _⟩ =>
      show ((rowScatterDims N E C wf).start (ix2 e k') idx 0
        + ((rowScatterDims N E C wf).window (ix2 e k') 0 : Nat)).toNat = i0.val
      rw [rowScatter_start0, rowScatter_window0, ht]
      omega
    | ⟨1, _⟩ =>
      show ((rowScatterDims N E C wf).start (ix2 e k') idx 1
        + ((rowScatterDims N E C wf).window (ix2 e k') 1 : Nat)).toNat = k'.val
      rw [rowScatter_start1, rowScatter_window1]
      omega

end RowScatter

/-- THE ACCUMULATING ROW SCATTER READ AT `(i, k)`, on the extended reals: the table's entry plus column `k` of every update
    row whose index word, read signed, is `i`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : Int)), upd (ix2 e k) := by
  unfold Ideal.hostScatterAdd
  congr 1
  -- the updates that land at `(i, k)` are the entries `(e, k)` of the rows `e` whose word is `i`: re-index by the row
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    rw [Finset.mem_filter] at hj
    exact Finset.mem_filter.mpr ⟨Finset.mem_univ _, ((rowScatter_resultIdx?_iff wf idx e k' i k).mp hj.2).2⟩
  · intro e he
    rw [Finset.mem_filter] at he
    exact Finset.mem_filter.mpr ⟨Finset.mem_univ _, (rowScatter_resultIdx?_iff wf idx e k i k).mpr ⟨rfl, he.2⟩⟩
  · intro j hj
    obtain ⟨e, k', rfl⟩ : ∃ (e : Fin E) (k' : Fin C), j = ix2 e k' := ⟨j 0, j 1, eq_ix2 j⟩
    rw [Finset.mem_filter] at hj
    obtain ⟨rfl, _⟩ := (rowScatter_resultIdx?_iff wf idx e k' i k).mp hj.2
    rfl
  · intro e _
    rfl
  · intro j hj
    obtain ⟨e, k', rfl⟩ : ∃ (e : Fin E) (k' : Fin C), j = ix2 e k' := ⟨j 0, j 1, eq_ix2 j⟩
    rw [Finset.mem_filter] at hj
    obtain ⟨rfl, _⟩ := (rowScatter_resultIdx?_iff wf idx e k' i k).mp hj.2
    rfl

end SegSumRows

end
-- ==== Proof.LibSegSumScalars.lean ====
/-
  Scalars added into a vector by index, read at one entry.

  The accumulating scatter of `E` scalar updates into an `[N]` vector by `E` index words (one per update, laid out `[E, 1]`)
  adds, at entry `i`, every update `e` whose index word, read signed and NOT clamped, is `i`; an update whose word falls
  outside the vector is dropped.  This is the counting half of a segment sum (`segment_sum` of ones).  Stated for any `N`,
  `E` and any word width.
-/
import Idealize.ShloMosaic.PureOps.Ideal
import Idealize.ShloMosaic.Lib.ValueIdx

noncomputable section

namespace SegSumScalars

open Idealize.ShloMosaic Idealize.ShloMosaic.ValueIdx

/-- The dimension numbers of the scatter of `E` scalar updates `[E]` into an `[N]` vector by scatter indices `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter

variable {N E w : Nat} (wf : ScatterDims.WF ⟨1, ![N]⟩ ⟨2, ![E, 1]⟩ ⟨1, ![E]⟩ [] [0] [0] 1)

/-- On the vector's one axis the window of update `e` starts at its index word, read signed. -/
theorem vecScatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is an inserted window axis: an update is a scalar and has no window coordinate. -/
theorem vecScatter_window0 (e : Fin E) : (vecScatterDims N E wf).window (ix1 e) 0 = 0 := by
  have h0 : (0 : Fin 1) ∉ (vecScatterDims N E wf).sKept := by
    show (0 : Fin 1) ∉ (List.finRange 1).filter (· ∉ ([0] : List (Fin 1)))
    decide
  unfold ScatterDims.window
  rw [dif_neg h0]

/-- WHERE AN UPDATE LANDS: update `e` lands at entry `i0` exactly when its index word, read signed, is `i0`. -/
theorem vecScatter_resultIdx?_iff (idx : IVec ⟨2, ![E, 1]⟩ w) (e : Fin E) (i0 : Fin N) :
    (vecScatterDims N E wf).resultIdx? (ix1 e) idx = some (ix1 i0)
      ↔ (idx (ix2 e (0 : Fin 1))).toInt = (i0.val : Int) := by
  unfold ScatterDims.resultIdx?
  constructor
  · intro h
    split at h
    · rename_i hin
      have hf := Option.some.inj h
      have h0 : ((vecScatterDims N E wf).start (ix1 e) idx 0
          + ((vecScatterDims N E wf).window (ix1 e) 0 : Nat)).toNat = i0.val :=
        congrArg (fun f => (f (0 : Fin 1)).val) hf
      have hin0 := (hin 0).1
      rw [vecScatter_start0, vecScatter_window0] at h0 hin0
      omega
    · exact absurd h (by simp)
  · intro ht
    have hin : ∀ a : Fin 1, 0 ≤ (vecScatterDims N E wf).start (ix1 e) idx a
          + ((vecScatterDims N E wf).window (ix1 e) a : Nat)
        ∧ (vecScatterDims N E wf).start (ix1 e) idx a + ((vecScatterDims N E wf).window (ix1 e) a : Nat)
          < (((⟨1, ![N]⟩ : Shape).size a : Nat) : Int) := by
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat)
            < ((N : Nat) : Int)
        rw [vecScatter_start0, vecScatter_window0, ht]
        have := i0.isLt
        omega
    rw [dif_pos hin]
    congr 1
    funext a
    refine Fin.ext ?_
    match a with
    | ⟨0, _⟩ =>
      show ((vecScatterDims N E wf).start (ix1 e) idx 0
        + ((vecScatterDims N E wf).window (ix1 e) 0 : Nat)).toNat = i0.val
      rw [vecScatter_start0, vecScatter_window0, ht]
      omega

end VecScatter

/-- THE ACCUMULATING SCATTER OF SCALARS READ AT `i`, on the extended reals: the vector's entry plus every update whose
    index word, read signed, is `i`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  -- the updates that land at `i` are the rows whose word is `i`: re-index the rank-1 update index by its coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    rw [Finset.mem_filter] at hj
    exact Finset.mem_filter.mpr ⟨Finset.mem_univ _, (vecScatter_resultIdx?_iff wf idx e i).mp hj.2⟩
  · intro e he
    rw [Finset.mem_filter] at he
    exact Finset.mem_filter.mpr ⟨Finset.mem_univ _, (vecScatter_resultIdx?_iff wf idx e i).mpr he.2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end SegSumScalars

end
-- ==== Proof.RefSide.lean ====
/-
  The reference's two segment reductions, read as the class sums and the class counts.
-/
import proofs.«422173_j38027640439209_3_alg».proof.Proof.Gen.ReferenceIdeal.Read
import proofs.«422173_j38027640439209_3_alg».proof.Proof.SegSpec
import proofs.«422173_j38027640439209_3_alg».proof.Proof.LibSegSumRows
import proofs.«422173_j38027640439209_3_alg».proof.Proof.LibSegSumScalars

noncomputable section

namespace SegMean.Ref

open Idealize.ShloMosaic Idealize.ShloMosaic.TcCoe Idealize.ShloMosaic.ValueIdx
open Cert.ReferenceIdeal Cert.ReferenceIdeal.Gen Cert.ReferenceIdeal.Read
open SegSumScalars

/-! ## A label word read signed against a class number -/

/-- The word of a class number below three, read signed, is that number. -/
private theorem toInt_ofNat_class (i : Fin 3) : (BitVec.ofNat 32 i.val).toInt = (i.val : Int) := by
  match i with
  | ⟨0, _⟩ => show (BitVec.ofNat 32 0).toInt = ((0 : Nat) : Int); decide
  | ⟨1, _⟩ => show (BitVec.ofNat 32 1).toInt = ((1 : Nat) : Int); decide
  | ⟨2, _⟩ => show (BitVec.ofNat 32 2).toInt = ((2 : Nat) : Int); decide

/-- A word read signed is the class number `i` exactly when it is the word of `i` (reading signed is injective). -/
private theorem toInt_eq_class_iff (w : BitVec 32) (i : Fin 3) :
    w.toInt = (i.val : Int) ↔ w = BitVec.ofNat 32 i.val := by
  constructor
  · intro h
    exact BitVec.eq_of_toInt_eq (h.trans (toInt_ofNat_class i).symm)
  · rintro rfl
    exact toInt_ofNat_class i

/-- The sum over the rows whose word, read signed, is `i` is the sum over all rows of the term times the 0/1 weight. -/
private theorem sum_filter_class {n : Nat} (f : Fin n → EReal) (wd : Fin n → BitVec 32) (i : Fin 3) :
    ∑ e ∈ Finset.univ.filter (fun e : Fin n => (wd e).toInt = (i.val : Int)), f e
      = ∑ e : Fin n, f e * SegMean.hit (wd e) i.val := by
  rw [Finset.sum_filter]
  refine Finset.sum_congr rfl fun e _ => ?_
  unfold SegMean.hit
  by_cases h : wd e = BitVec.ofNat 32 i.val
  · rw [if_pos ((toInt_eq_class_iff (wd e) i).mpr h), if_pos h, mul_one]
  · rw [if_neg (fun h' => h ((toInt_eq_class_iff (wd e) i).mp h')), if_neg h, mul_zero]

/-- The pattern of the float one denotes one. -/
private theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- Row `e` of the label words laid out as a column reads label word `e`. -/
private theorem idx_v1_ix2 (e : Fin 500000) : idx_main_v1 (ix2 e (0 : Fin 1)) = ix1 e := by
  funext a
  match a with
  | ⟨0, _⟩ => rfl

/-- The same for the second copy of the column of label words. -/
private theorem idx_v5_ix2 (e : Fin 500000) : idx_main_v5 (ix2 e (0 : Fin 1)) = ix1 e := by
  funext a
  match a with
  | ⟨0, _⟩ => rfl

/-- The reference's row scatter has the dimension numbers of the row scatter of an `[3, 128]` table by 500000 index words. -/
private theorem sums_dims : scatter_S3x128_S500000x1_S500000x128_1_0_0_1
      = SegSumRows.rowScatterDims 3 500000 128 Facts₀.scatter_S3x128_S500000x1_S500000x128_1_0_0_1_wf := rfl

/-- On the extended reals the reference's row scatter is the exact accumulating scatter of the table's rows into the zero rows. -/
private theorem sums_unfold (X : (⟨S500000x128, .f32⟩ : BufTy).Contents (Elt Ideal)) (L : (⟨S500000, .i32⟩ : BufTy).Contents (Elt Ideal)) :
    val_main_v2 (F := Ideal) X L
      = Ideal.hostScatterAdd (SegSumRows.rowScatterDims 3 500000 128 Facts₀.scatter_S3x128_S500000x1_S500000x128_1_0_0_1_wf)
          (val_main_v0 (F := Ideal)) (val_main_v1 (F := Ideal) L) X := by
  unfold val_main_v2 Host.scatterAdd
  rw [Ideal.hostScatterAdd_def, sums_dims]

/-- The row scatter read at `(i, k)`: the zero entry plus column `k` of every row whose word, read signed, is `i`. -/
private theorem sums_read (X : (⟨S500000x128, .f32⟩ : BufTy).Contents (Elt Ideal)) (L : (⟨S500000, .i32⟩ : BufTy).Contents (Elt Ideal))
    (i : Fin 3) (k : Fin 128) :
    val_main_v2 (F := Ideal) X L (ix2 i k)
      = val_main_v0 (F := Ideal) (ix2 i k)
        + ∑ e ∈ Finset.univ.filter (fun e : Fin 500000 =>
            (val_main_v1 (F := Ideal) L (ix2 e (0 : Fin 1))).toInt = (i.val : Int)), X (ix2 e k) := by
  rw [sums_unfold]
  exact SegSumRows.scatterAdd_rows_apply (N := 3) (E := 500000) (C := 128)
      Facts₀.scatter_S3x128_S500000x1_S500000x128_1_0_0_1_wf
      (val_main_v0 (F := Ideal)) (val_main_v1 (F := Ideal) L) X i k

/-- The accumulating scatter of the table's rows into three zero rows by the label words is the class sums. -/
theorem ref_sums (X : (⟨S500000x128, .f32⟩ : BufTy).Contents (Elt Ideal)) (L : (⟨S500000, .i32⟩ : BufTy).Contents (Elt Ideal)) :
    val_main_v2 (F := Ideal) X L = SegMean.classSum X L := by
  funext y
  obtain ⟨i, k, rfl⟩ : ∃ (i : Fin 3) (k : Fin 128), y = ix2 i k := ⟨y 0, y 1, eq_ix2 y⟩
  rw [sums_read, val_main_v0_apply, val_main_cst_apply, Ideal.ofBits_def, Ideal.ofBits_zero_f32, zero_add]
  have hw : ∀ e : Fin 500000, val_main_v1 (F := Ideal) L (ix2 e (0 : Fin 1)) = L (ix1 e) := fun e => by
    rw [val_main_v1_apply, idx_v1_ix2]
  simp only [hw]
  exact sum_filter_class (fun e => X (ix2 e k)) (fun e => L (ix1 e)) i

/-- The reference's scatter of ones has the dimension numbers of the scatter of scalars into a vector of three by 500000 index words. -/
private theorem counts_dims : scatter_S3_S500000x1_S500000_n_0_0_1
      = vecScatterDims 3 500000 Facts₀.scatter_S3_S500000x1_S500000_n_0_0_1_wf := rfl

/-- On the extended reals the reference's scatter of ones is the exact accumulating scatter of the ones into the three zeros. -/
private theorem counts_unfold (L : (⟨S500000, .i32⟩ : BufTy).Contents (Elt Ideal)) :
    val_main_v6 (F := Ideal) L
      = Ideal.hostScatterAdd (vecScatterDims 3 500000 Facts₀.scatter_S3_S500000x1_S500000_n_0_0_1_wf)
          (val_main_v4 (F := Ideal)) (val_main_v5 (F := Ideal) L) (val_main_v3 (F := Ideal)) := by
  unfold val_main_v6 Host.scatterAdd
  rw [Ideal.hostScatterAdd_def, counts_dims]

/-- The scatter of ones read at class `i`: the zero entry plus a one for every row whose word, read signed, is `i`. -/
private theorem counts_read (L : (⟨S500000, .i32⟩ : BufTy).Contents (Elt Ideal)) (i : Fin 3) :
    val_main_v6 (F := Ideal) L (ix1 i)
      = val_main_v4 (F := Ideal) (ix1 i)
        + ∑ e ∈ Finset.univ.filter (fun e : Fin 500000 =>
            (val_main_v5 (F := Ideal) L (ix2 e (0 : Fin 1))).toInt = (i.val : Int)), val_main_v3 (F := Ideal) (ix1 e) := by
  rw [counts_unfold]
  exact scatterAdd_vec_apply (N := 3) (E := 500000)
      Facts₀.scatter_S3_S500000x1_S500000_n_0_0_1_wf
      (val_main_v4 (F := Ideal)) (val_main_v5 (F := Ideal) L) (val_main_v3 (F := Ideal)) i

/-- Entry `(i, k)` of the counts spread over the columns reads entry `i` of the vector of counts. -/
private theorem idx_v7_v8_ix2 (i : Fin 3) (k : Fin 128) : idx_main_v7 (idx_main_v8 (ix2 i k)) = ix1 i := by
  funext a
  match a with
  | ⟨0, _⟩ => rfl

/-- The accumulating scatter of ones into three zeros by the label words, spread over the columns, is the class counts. -/
theorem ref_counts (L : (⟨S500000, .i32⟩ : BufTy).Contents (Elt Ideal)) :
    val_main_v8 (F := Ideal) L = SegMean.classCount L := by
  funext y
  obtain ⟨i, k, rfl⟩ : ∃ (i : Fin 3) (k : Fin 128), y = ix2 i k := ⟨y 0, y 1, eq_ix2 y⟩
  rw [val_main_v8_apply, val_main_v7_apply, idx_v7_v8_ix2, counts_read, val_main_v4_apply, val_main_cst_1_apply,
    Ideal.ofBits_def, Ideal.ofBits_zero_f32, zero_add]
  have hw : ∀ e : Fin 500000, val_main_v5 (F := Ideal) L (ix2 e (0 : Fin 1)) = L (ix1 e) := fun e => by
    rw [val_main_v5_apply, idx_v5_ix2]
  have h1 : ∀ e : Fin 500000, val_main_v3 (F := Ideal) (ix1 e) = 1 := fun e => by
    rw [val_main_v3_apply, val_main_cst_0_apply, Ideal.ofBits_def, ofBits_one_f32]
  simp only [hw, h1]
  rw [sum_filter_class (fun _ => (1 : EReal)) (fun e => L (ix1 e)) i]
  exact Finset.sum_congr rfl fun e _ => one_mul _

end SegMean.Ref

end
-- ==== Proof.lean ====
/-
  Per-class means of the rows of a table, each mean L2-normalised.

  The table has 500000 rows and 128 columns; each row carries a 32-bit label word; there are three classes.  The kernel walks
  the rows in 50 blocks of 10000 on a 2 × 25 grid (two cores, 25 steps each).  At each step, for each class `j`, it adds to row
  `j` of a [3,128] accumulator the block's column sums over the rows whose label word is the word of `j` (the block times a
  0/1 mask, summed over rows) and to entry `j` of a [1,3] accumulator the number of such rows; a core's first step starts
  both from zero and its last step copies them to the core's block of a [2,3,128] and a [2,1,3] array.  The host adds the two
  cores' blocks, divides sums by counts, and divides each row of means by the larger of its Euclidean norm and a small
  constant.  The reference scatters the rows, and a vector of ones, into three zero rows by the label words (an update whose
  word, read signed, is outside 0..2 is dropped) and applies the same division and normalisation, literal for literal.

  Over the extended reals both sides therefore apply one function to the same two arrays: entry `(j, d)` of the class sums is
  the sum over ALL rows of the entry in column `d` times the row's weight for `j` (1 if its word is the word of `j`, else 0),
  and the class counts are the sum of the weights.  On the kernel's side this is the sum over cores, steps and rows of a block
  regrouped into one sum (addition on the extended reals is commutative and associative; no finiteness is used); on the
  reference's side a word read signed equals `j` exactly when it is the word of `j`.  The ideal pass rewrote nothing, so the
  idealization conjunct is trivial; the kernels' frames are the generated ones; the reference's frame is its run with the
  results forgotten.
-/
import proofs.«422173_j38027640439209_3_alg».proof.Defs
import proofs.«422173_j38027640439209_3_alg».proof.Proof.Gen.Kernel
import proofs.«422173_j38027640439209_3_alg».proof.Proof.Gen.Kernel.Skeleton
import proofs.«422173_j38027640439209_3_alg».proof.Proof.Gen.Kernel.Launch
import proofs.«422173_j38027640439209_3_alg».proof.Proof.Gen.Kernel.Points
import proofs.«422173_j38027640439209_3_alg».proof.Proof.Gen.Kernel.Frame
import proofs.«422173_j38027640439209_3_alg».proof.Proof.Gen.KernelIdeal
import proofs.«422173_j38027640439209_3_alg».proof.Proof.Gen.KernelIdeal.Skeleton
import proofs.«422173_j38027640439209_3_alg».proof.Proof.Gen.KernelIdeal.Launch
import proofs.«422173_j38027640439209_3_alg».proof.Proof.Gen.KernelIdeal.Points
import proofs.«422173_j38027640439209_3_alg».proof.Proof.Gen.KernelIdeal.Frame
import proofs.«422173_j38027640439209_3_alg».proof.Proof.Gen.ReferenceIdeal
import proofs.«422173_j38027640439209_3_alg».proof.Proof.Gen.Pre_finite_inputs
import proofs.«422173_j38027640439209_3_alg».proof.Proof.Gen.ReferenceIdeal.Run
import proofs.«422173_j38027640439209_3_alg».proof.Proof.Gen.ReferenceIdeal.Read
import proofs.«422173_j38027640439209_3_alg».proof.Proof.KerRun
import proofs.«422173_j38027640439209_3_alg».proof.Proof.RefSide
import Idealize.ShloMosaic.Adequacy
import Idealize.ShloMosaic.Init

noncomputable section

namespace Cert.Proof

open Idealize.ShloMosaic Idealize.ShloMosaic.TcCoe Idealize.SL.Sem

/-- The reference's first result is the normalised class means of its arguments: its two scatters are the class sums and the
    class counts, and what follows them is, operation for operation, the kernel's host tail. -/
theorem ref_result (X : (⟨Cert.ReferenceIdeal.S500000x128, .f32⟩ : BufTy).Contents (Elt Ideal))
    (L : (⟨Cert.ReferenceIdeal.S500000, .i32⟩ : BufTy).Contents (Elt Ideal)) :
    Cert.ReferenceIdeal.Read.val_main_v17 (F := Ideal) X L
      = SegMean.Ker.meansNormalised (SegMean.classSum X L) (SegMean.classCount L) := by
  rw [← SegMean.Ref.ref_sums X L, ← SegMean.Ref.ref_counts L]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the table and the label words both programs end with the normalised class means of those
    arguments and the class indices. -/
theorem algebraic : Cert.algebraic_KernelIdeal_ReferenceIdeal := by
  intro m ρ m' ρ' _ hagree
  refine ⟨_, _, SegMean.Ker.ker_run m ρ, ?_⟩
  refine (θ_run Cert.ReferenceIdeal.defs _ _).mono (fun _ h c => ⟨(h c).1.trans ?_, (h c).2.1, (h c).2.2.1, (h c).2.2.2⟩)
    (Cert.ReferenceIdeal.Value.run (F := Ideal) m' ρ')
  rw [Cert.ReferenceIdeal.Read.val_main_v17_eq, (hagree c).1, (hagree c).2]
  exact ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
